-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel

variable [Facts]

def fn_part1 {F : FTy → Type} [FloatOps F] (main_v13 : IVec S_ 1) (main_v16 : IVec S4x256x128x128 1) : IVec S_ 1 :=
  let main_c_5 : IVec S_ 1 := constantI S_ 1 1#1
  let main_v17 : IVec S_ 1 := (fun x v => Host.reduce IntOp.andi x v reducesTo_S4x256x128x128_S_d0_1_2_3 h_S_) main_v16 main_c_5
  let main_v18 : IVec S_ 1 := andi main_v13 main_v17
  main_v18

def fn {F : FTy → Type} [FloatOps F] (main_arg0 : FVec F S4x256x128x128 .f32) (main_arg1 : FVec F S4x256x128x128 .f32) (main_arg2 : FVec F S4x256x128x128 .f32) (main_arg3 : FVec F S4x256x128x128 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S4x256x128x128 .f32 := Host.absf main_arg1
  let main_cst_0 : FVec F S_ .f32 := constant S_ .f32 0x7F800000#32
  let main_v5 : FVec F S4x256x128x128 .f32 := broadcastInDim S4x256x128x128 ![] bcast_S_S4x256x128x128 main_cst_0
  let main_v6 : IVec S4x256x128x128 1 := cmpf .olt main_v4 main_v5
  let main_c_1 : IVec S_ 1 := constantI S_ 1 1#1
  let main_v7 : IVec S_ 1 := (fun x v => Host.reduce IntOp.andi x v reducesTo_S4x256x128x128_S_d0_1_2_3 h_S_) main_v6 main_c_1
  let main_v8 : IVec S_ 1 := andi main_v3 main_v7
  let main_v9 : FVec F S4x256x128x128 .f32 := Host.absf main_arg2
  let main_cst_2 : FVec F S_ .f32 := constant S_ .f32 0x7F800000#32
  let main_v10 : FVec F S4x256x128x128 .f32 := broadcastInDim S4x256x128x128 ![] bcast_S_S4x256x128x128 main_cst_2
  let main_v11 : IVec S4x256x128x128 1 := cmpf .olt main_v9 main_v10
  let main_c_3 : IVec S_ 1 := constantI S_ 1 1#1
  let main_v12 : IVec S_ 1 := (fun x v => Host.reduce IntOp.andi x v reducesTo_S4x256x128x128_S_d0_1_2_3 h_S_) main_v11 main_c_3
  let main_v13 : IVec S_ 1 := andi main_v8 main_v12
  let main_v14 : FVec F S4x256x128x128 .f32 := Host.absf main_arg3
  let main_cst_4 : FVec F S_ .f32 := constant S_ .f32 0x7F800000#32
  let main_v15 : FVec F S4x256x128x128 .f32 := broadcastInDim S4x256x128x128 ![] bcast_S_S4x256x128x128 main_cst_4
  let main_v16 : IVec S4x256x128x128 1 := cmpf .olt main_v14 main_v15
  fn_part1 (F := F) main_v13 main_v16
-- ==== Kernel.lean ====
abbrev S4x256x128x128 : Shape := ⟨4, ![4, 256, 128, 128]⟩
abbrev S4x8x32x16x8x16x8 : Shape := ⟨7, ![4, 8, 32, 16, 8, 16, 8]⟩
abbrev S4x16x16x8x8x8x32 : Shape := ⟨7, ![4, 16, 16, 8, 8, 8, 32]⟩
abbrev S1024x8x64x32 : Shape := ⟨4, ![1024, 8, 64, 32]⟩
abbrev S8192x64x32 : Shape := ⟨3, ![8192, 64, 32]⟩
abbrev S256x64x32 : Shape := ⟨3, ![256, 64, 32]⟩
abbrev S256x64x64 : Shape := ⟨3, ![256, 64, 64]⟩
abbrev S256x64 : Shape := ⟨2, ![256, 64]⟩
abbrev S256x64x1 : Shape := ⟨3, ![256, 64, 1]⟩
abbrev S4x128x256x128 : Shape := ⟨4, ![4, 128, 256, 128]⟩
abbrev S512x256x128 : Shape := ⟨3, ![512, 256, 128]⟩
abbrev S16x256x128 : Shape := ⟨3, ![16, 256, 128]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 23
  | .vmem => 12
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x256x128x128, .f32⟩
  | .hbm, ⟨4, _⟩ => ⟨S4x8x32x16x8x16x8, .f32⟩
  | .hbm, ⟨5, _⟩ => ⟨S4x16x16x8x8x8x32, .f32⟩
  | .hbm, ⟨6, _⟩ => ⟨S1024x8x64x32, .f32⟩
  | .hbm, ⟨7, _⟩ => ⟨S8192x64x32, .f32⟩
  | .hbm, ⟨8, _⟩ => ⟨S8192x64x32, .f32⟩
  | .hbm, ⟨9, _⟩ => ⟨S1024x8x64x32, .f32⟩
  | .hbm, ⟨10, _⟩ => ⟨S4x16x16x8x8x8x32, .f32⟩
  | .hbm, ⟨11, _⟩ => ⟨S4x8x32x16x8x16x8, .f32⟩
  | .hbm, ⟨12, _⟩ => ⟨S4x256x128x128, .f32⟩
  | .hbm, ⟨13, _⟩ => ⟨S4x128x256x128, .f32⟩
  | .hbm, ⟨14, _⟩ => ⟨S512x256x128, .f32⟩
  | .hbm, ⟨15, _⟩ => ⟨S4x128x256x128, .f32⟩
  | .hbm, ⟨16, _⟩ => ⟨S512x256x128, .f32⟩
  | .hbm, ⟨17, _⟩ => ⟨S4x128x256x128, .f32⟩
  | .hbm, ⟨18, _⟩ => ⟨S512x256x128, .f32⟩
  | .hbm, ⟨19, _⟩ => ⟨S512x256x128, .f32⟩
  | .hbm, ⟨20, _⟩ => ⟨S4x128x256x128, .f32⟩
  | .hbm, ⟨21, _⟩ => ⟨S4x256x128x128, .f32⟩
  | .hbm, ⟨22, _⟩ => ⟨S4x256x128x128, .f32⟩
  | .local _ .vmem, ⟨0, _⟩ => ⟨S256x64x32, .f32⟩
  | .local _ .vmem, ⟨1, _⟩ => ⟨S256x64x32, .f32⟩
  | .local _ .vmem, ⟨2, _⟩ => ⟨S256x64x32, .f32⟩
  | .local _ .vmem, ⟨3, _⟩ => ⟨S256x64x32, .f32⟩
  | .local _ .vmem, ⟨4, _⟩ => ⟨S16x256x128, .f32⟩
  | .local _ .vmem, ⟨5, _⟩ => ⟨S16x256x128, .f32⟩
  | .local _ .vmem, ⟨6, _⟩ => ⟨S16x256x128, .f32⟩
  | .local _ .vmem, ⟨7, _⟩ => ⟨S16x256x128, .f32⟩
  | .local _ .vmem, ⟨8, _⟩ => ⟨S16x256x128, .f32⟩
  | .local _ .vmem, ⟨9, _⟩ => ⟨S16x256x128, .f32⟩
  | .local _ .vmem, ⟨10, _⟩ => ⟨S16x256x128, .f32⟩
  | .local _ .vmem, ⟨11, _⟩ => ⟨S16x256x128, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x256x128x128_S4x8x32x16x8x16x8 : S4x256x128x128.ShapeCasts S4x8x32x16x8x16x8
  transposes_S4x8x32x16x8x16x8_S4x16x16x8x8x8x32_0_3_5_1_4_6_2 : S4x8x32x16x8x16x8.Transposes [0, 3, 5, 1, 4, 6, 2] S4x16x16x8x8x8x32
  shapeCasts_S4x16x16x8x8x8x32_S1024x8x64x32 : S4x16x16x8x8x8x32.ShapeCasts S1024x8x64x32
  shapeCasts_S1024x8x64x32_S8192x64x32 : S1024x8x64x32.ShapeCasts S8192x64x32
  inb_S256x64x32_S256x64x32_0_0_0 : ∀ a, (![0, 0, 0] : Fin 3 → Nat) a + S256x64x32.size a ≤ S256x64x32.size a
  h_S256x64x32 : 0 < S256x64x32.numel
  shapeCasts_S256x64x32_S256x64x32 : S256x64x32.ShapeCasts S256x64x32
  bitsLt_bf16_f32 : FTy.bits .bf16 < FTy.bits .f32
  reduces_S256x64x64_S256x64 : S256x64x64.Reduces [2] S256x64
  shapeCasts_S256x64_S256x64x1 : S256x64.ShapeCasts S256x64x1
  broadcasts_S256x64x1_S256x64x64 : S256x64x1.Broadcasts S256x64x64
  shapeCasts_S8192x64x32_S1024x8x64x32 : S8192x64x32.ShapeCasts S1024x8x64x32
  shapeCasts_S1024x8x64x32_S4x16x16x8x8x8x32 : S1024x8x64x32.ShapeCasts S4x16x16x8x8x8x32
  transposes_S4x16x16x8x8x8x32_S4x8x32x16x8x16x8_0_3_6_1_4_2_5 : S4x16x16x8x8x8x32.Transposes [0, 3, 6, 1, 4, 2, 5] S4x8x32x16x8x16x8
  shapeCasts_S4x8x32x16x8x16x8_S4x256x128x128 : S4x8x32x16x8x16x8.ShapeCasts S4x256x128x128
  transposes_S4x256x128x128_S4x128x256x128_0_2_1_3 : S4x256x128x128.Transposes [0, 2, 1, 3] S4x128x256x128
  shapeCasts_S4x128x256x128_S512x256x128 : S4x128x256x128.ShapeCasts S512x256x128
  inb_S16x256x128_S16x256x128_0_0_0 : ∀ a, (![0, 0, 0] : Fin 3 → Nat) a + S16x256x128.size a ≤ S16x256x128.size a
  h_S16x256x128 : 0 < S16x256x128.numel
  shapeCasts_S16x256x128_S16x256x128 : S16x256x128.ShapeCasts S16x256x128
  reduces_S16x256x256_S16x256 : S16x256x256.Reduces [2] S16x256
  shapeCasts_S16x256_S16x256x1 : S16x256.ShapeCasts S16x256x1
  broadcasts_S16x256x1_S16x256x256 : S16x256x1.Broadcasts S16x256x256
  shapeCasts_S512x256x128_S4x128x256x128 : S512x256x128.ShapeCasts S4x128x256x128
  transposes_S4x128x256x128_S4x256x128x128_0_2_1_3 : S4x128x256x128.Transposes [0, 2, 1, 3] S4x256x128x128
  dot_S256x64x32_S256x64x32_S256x64x64_2_2_1_1_0_0_wf : DotDims.WF S256x64x32 S256x64x32 S256x64x64 [2] [2] [1] [1] [0] [0]
  dot_S256x64x64_S256x64x32_S256x64x32_2_1_1_2_0_0_wf : DotDims.WF S256x64x64 S256x64x32 S256x64x32 [2] [1] [1] [2] [0] [0]
  dot_S16x256x128_S16x256x128_S16x256x256_2_2_1_1_0_0_wf : DotDims.WF S16x256x128 S16x256x128 S16x256x256 [2] [2] [1] [1] [0] [0]
  dot_S16x256x256_S16x256x128_S16x256x128_2_1_1_2_0_0_wf : DotDims.WF S16x256x256 S16x256x128 S16x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x32.size a ≤ S8192x64x32.size a
  hwx0_0 : ∀ i : grid0.Coords, EltTy.bits .f32 = 32 ∨ (Rect.block (s := S8192x64x32) S256x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x32.size a ≤ S8192x64x32.size a
  hwx0_1 : ∀ i : grid0.Coords, EltTy.bits .f32 = 32 ∨ (Rect.block (s := S8192x64x32) S256x64x32.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x128.size a ≤ S512x256x128.size a
  hwx1_0 : ∀ i : grid1.Coords, EltTy.bits .f32 = 32 ∨ (Rect.block (s := S512x256x128) S16x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x128.size a ≤ S512x256x128.size a
  hwx1_1 : ∀ i : grid1.Coords, EltTy.bits .f32 = 32 ∨ (Rect.block (s := S512x256x128) S16x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256x128.size a ≤ S512x256x128.size a
  hwx1_2 : ∀ i : grid1.Coords, EltTy.bits .f32 = 32 ∨ (Rect.block (s := S512x256x128) S16x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x256x128.size a ≤ S512x256x128.size a
  hwx1_3 : ∀ i : grid1.Coords, EltTy.bits .f32 = 32 ∨ (Rect.block (s := S512x256x128) S16x256x128.size (cc1_transform_3 i) (hinb1_3 i)).WholeWords (EltTy.packing .f32)

variable [Facts₀]

def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf
def dot_S256x64x64_S256x64x32_S256x64x32_2_1_1_2_0_0 : DotDims S256x64x64 S256x64x32 S256x64x32 where
  lhsContracting := [2]
  rhsContracting := [1]
  lhsNonContracting := [1]
  rhsNonContracting := [2]
  lhsBatch := [0]
  rhsBatch := [0]
  wf := dot_S256x64x64_S256x64x32_S256x64x32_2_1_1_2_0_0_wf
def dot_S16x256x128_S16x256x128_S16x256x256_2_2_1_1_0_0 : DotDims S16x256x128 S16x256x128 S16x256x256 where
  lhsContracting := [2]
  rhsContracting := [2]
  lhsNonContracting := [1]
  rhsNonContracting := [1]
  lhsBatch := [0]
  rhsBatch := [0]
  wf := dot_S16x256x128_S16x256x128_S16x256x256_2_2_1_1_0_0_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf

abbrev win0_0 : Pipeline.Window sig grid0 :=
  Pipeline.Window.ofSpec (Memref.whole main_v3) S256x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x64x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v10) S16x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S16x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S16x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x128x128 : Shape := ⟨4, ![4, 256, 128, 128]⟩
abbrev S4x8x32x16x8x16x8 : Shape := ⟨7, ![4, 8, 32, 16, 8, 16, 8]⟩
abbrev S4x16x16x8x8x8x32 : Shape := ⟨7, ![4, 16, 16, 8, 8, 8, 32]⟩
abbrev S1024x8x64x32 : Shape := ⟨4, ![1024, 8, 64, 32]⟩
abbrev S1024x8x64x64 : Shape := ⟨4, ![1024, 8, 64, 64]⟩
abbrev S_ : Shape := ⟨0, ![]⟩
abbrev S1024x8x64 : Shape := ⟨3, ![1024, 8, 64]⟩
abbrev S1024x8x64x1 : Shape := ⟨4, ![1024, 8, 64, 1]⟩
abbrev S4x128x256x128 : Shape := ⟨4, ![4, 128, 256, 128]⟩
abbrev S4x128x256x256 : Shape := ⟨4, ![4, 128, 256, 256]⟩
abbrev S4x128x256 : Shape := ⟨3, ![4, 128, 256]⟩
abbrev S4x128x256x1 : Shape := ⟨4, ![4, 128, 256, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x256x128x128, .f32⟩
  | .hbm, ⟨4, _⟩ => ⟨S4x8x32x16x8x16x8, .f32⟩
  | .hbm, ⟨5, _⟩ => ⟨S4x16x16x8x8x8x32, .f32⟩
  | .hbm, ⟨6, _⟩ => ⟨S1024x8x64x32, .f32⟩
  | .hbm, ⟨7, _⟩ => ⟨S1024x8x64x64, .f32⟩
  | .hbm, ⟨8, _⟩ => ⟨S_, .f32⟩
  | .hbm, ⟨9, _⟩ => ⟨S1024x8x64x64, .f32⟩
  | .hbm, ⟨10, _⟩ => ⟨S1024x8x64x64, .f32⟩
  | .hbm, ⟨11, _⟩ => ⟨S_, .f32⟩
  | .hbm, ⟨12, _⟩ => ⟨S1024x8x64, .f32⟩
  | .hbm, ⟨13, _⟩ => ⟨S_, .f32⟩
  | .hbm, ⟨14, _⟩ => ⟨S1024x8x64, .f32⟩
  | .hbm, ⟨15, _⟩ => ⟨S1024x8x64, .f32⟩
  | .hbm, ⟨16, _⟩ => ⟨S1024x8x64x1, .f32⟩
  | .hbm, ⟨17, _⟩ => ⟨S1024x8x64x64, .f32⟩
  | .hbm, ⟨18, _⟩ => ⟨S1024x8x64x64, .f32⟩
  | .hbm, ⟨19, _⟩ => ⟨S1024x8x64x64, .f32⟩
  | .hbm, ⟨20, _⟩ => ⟨S_, .f32⟩
  | .hbm, ⟨21, _⟩ => ⟨S1024x8x64, .f32⟩
  | .hbm, ⟨22, _⟩ => ⟨S1024x8x64x1, .f32⟩
  | .hbm, ⟨23, _⟩ => ⟨S1024x8x64x64, .f32⟩
  | .hbm, ⟨24, _⟩ => ⟨S1024x8x64x64, .f32⟩
  | .hbm, ⟨25, _⟩ => ⟨S1024x8x64x32, .f32⟩
  | .hbm, ⟨26, _⟩ => ⟨S4x16x16x8x8x8x32, .f32⟩
  | .hbm, ⟨27, _⟩ => ⟨S4x8x32x16x8x16x8, .f32⟩
  | .hbm, ⟨28, _⟩ => ⟨S4x256x128x128, .f32⟩
  | .hbm, ⟨29, _⟩ => ⟨S4x128x256x128, .f32⟩
  | .hbm, ⟨30, _⟩ => ⟨S4x128x256x128, .f32⟩
  | .hbm, ⟨31, _⟩ => ⟨S4x128x256x128, .f32⟩
  | .hbm, ⟨32, _⟩ => ⟨S4x128x256x256, .f32⟩
  | .hbm, ⟨33, _⟩ => ⟨S_, .f32⟩
  | .hbm, ⟨34, _⟩ => ⟨S4x128x256x256, .f32⟩
  | .hbm, ⟨35, _⟩ => ⟨S4x128x256x256, .f32⟩
  | .hbm, ⟨36, _⟩ => ⟨S_, .f32⟩
  | .hbm, ⟨37, _⟩ => ⟨S4x128x256, .f32⟩
  | .hbm, ⟨38, _⟩ => ⟨S_, .f32⟩
  | .hbm, ⟨39, _⟩ => ⟨S4x128x256, .f32⟩
  | .hbm, ⟨40, _⟩ => ⟨S4x128x256, .f32⟩
  | .hbm, ⟨41, _⟩ => ⟨S4x128x256x1, .f32⟩
  | .hbm, ⟨42, _⟩ => ⟨S4x128x256x256, .f32⟩
  | .hbm, ⟨43, _⟩ => ⟨S4x128x256x256, .f32⟩
  | .hbm, ⟨44, _⟩ => ⟨S4x128x256x256, .f32⟩
  | .hbm, ⟨45, _⟩ => ⟨S_, .f32⟩
  | .hbm, ⟨46, _⟩ => ⟨S4x128x256, .f32⟩
  | .hbm, ⟨47, _⟩ => ⟨S4x128x256x1, .f32⟩
  | .hbm, ⟨48, _⟩ => ⟨S4x128x256x256, .f32⟩
  | .hbm, ⟨49, _⟩ => ⟨S4x128x256x256, .f32⟩
  | .hbm, ⟨50, _⟩ => ⟨S4x128x256x128, .f32⟩
  | .hbm, ⟨51, _⟩ => ⟨S4x256x128x128, .f32⟩
  | .hbm, ⟨52, _⟩ => ⟨S4x256x128x128, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  shapeCasts_S4x256x128x128_S4x8x32x16x8x16x8 : S4x256x128x128.ShapeCasts S4x8x32x16x8x16x8
  transposes_S4x8x32x16x8x16x8_S4x16x16x8x8x8x32_0_3_5_1_4_6_2 : S4x8x32x16x8x16x8.Transposes [0, 3, 5, 1, 4, 6, 2] S4x16x16x8x8x8x32
  shapeCasts_S4x16x16x8x8x8x32_S1024x8x64x32 : S4x16x16x8x8x8x32.ShapeCasts S1024x8x64x32
  bcast_S_S1024x8x64x64 : S_.BroadcastsInDim S1024x8x64x64 (![] : Fin 0 → Fin S1024x8x64x64.rank)
  reducesTo_S1024x8x64x64_S1024x8x64_d3 : S1024x8x64x64.ReducesTo [3] S1024x8x64
  h_S_ : 0 < S_.numel
  bcast_S_S1024x8x64 : S_.BroadcastsInDim S1024x8x64 (![] : Fin 0 → Fin S1024x8x64.rank)
  bcast_S1024x8x64_S1024x8x64x1_0_1_2 : S1024x8x64.BroadcastsInDim S1024x8x64x1 (![0, 1, 2] : Fin 3 → Fin S1024x8x64x1.rank)
  bcast_S1024x8x64x1_S1024x8x64x64_0_1_2_3 : S1024x8x64x1.BroadcastsInDim S1024x8x64x64 (![0, 1, 2, 3] : Fin 4 → Fin S1024x8x64x64.rank)
  shapeCasts_S1024x8x64x32_S4x16x16x8x8x8x32 : S1024x8x64x32.ShapeCasts S4x16x16x8x8x8x32
  transposes_S4x16x16x8x8x8x32_S4x8x32x16x8x16x8_0_3_6_1_4_2_5 : S4x16x16x8x8x8x32.Transposes [0, 3, 6, 1, 4, 2, 5] S4x8x32x16x8x16x8
  shapeCasts_S4x8x32x16x8x16x8_S4x256x128x128 : S4x8x32x16x8x16x8.ShapeCasts S4x256x128x128
  transposes_S4x256x128x128_S4x128x256x128_0_2_1_3 : S4x256x128x128.Transposes [0, 2, 1, 3] S4x128x256x128
  bcast_S_S4x128x256x256 : S_.BroadcastsInDim S4x128x256x256 (![] : Fin 0 → Fin S4x128x256x256.rank)
  reducesTo_S4x128x256x256_S4x128x256_d3 : S4x128x256x256.ReducesTo [3] S4x128x256
  bcast_S_S4x128x256 : S_.BroadcastsInDim S4x128x256 (![] : Fin 0 → Fin S4x128x256.rank)
  bcast_S4x128x256_S4x128x256x1_0_1_2 : S4x128x256.BroadcastsInDim S4x128x256x1 (![0, 1, 2] : Fin 3 → Fin S4x128x256x1.rank)
  bcast_S4x128x256x1_S4x128x256x256_0_1_2_3 : S4x128x256x1.BroadcastsInDim S4x128x256x256 (![0, 1, 2, 3] : Fin 4 → Fin S4x128x256x256.rank)
  transposes_S4x128x256x128_S4x256x128x128_0_2_1_3 : S4x128x256x128.Transposes [0, 2, 1, 3] S4x256x128x128
  dot_S1024x8x64x32_S1024x8x64x32_S1024x8x64x64_3_3_2_2_01_01_wf : DotDims.WF S1024x8x64x32 S1024x8x64x32 S1024x8x64x64 [3] [3] [2] [2] [0, 1] [0, 1]
  dot_S1024x8x64x64_S1024x8x64x32_S1024x8x64x32_3_2_2_3_01_01_wf : DotDims.WF S1024x8x64x64 S1024x8x64x32 S1024x8x64x32 [3] [2] [2] [3] [0, 1] [0, 1]
  dot_S4x128x256x128_S4x128x256x128_S4x128x256x256_3_3_2_2_01_01_wf : DotDims.WF S4x128x256x128 S4x128x256x128 S4x128x256x256 [3] [3] [2] [2] [0, 1] [0, 1]
  dot_S4x128x256x256_S4x128x256x128_S4x128x256x128_3_2_2_3_01_01_wf : DotDims.WF S4x128x256x256 S4x128x256x128 S4x128x256x128 [3] [2] [2] [3] [0, 1] [0, 1]

variable [Facts₀]

def dot_S1024x8x64x32_S1024x8x64x32_S1024x8x64x64_3_3_2_2_01_01 : DotDims S1024x8x64x32 S1024x8x64x32 S1024x8x64x64 where
  lhsContracting := [3]
  rhsContracting := [3]
  lhsNonContracting := [2]
  rhsNonContracting := [2]
  lhsBatch := [0, 1]
  rhsBatch := [0, 1]
  wf := dot_S1024x8x64x32_S1024x8x64x32_S1024x8x64x64_3_3_2_2_01_01_wf
def dot_S1024x8x64x64_S1024x8x64x32_S1024x8x64x32_3_2_2_3_01_01 : DotDims S1024x8x64x64 S1024x8x64x32 S1024x8x64x32 where
  lhsContracting := [3]
  rhsContracting := [2]
  lhsNonContracting := [2]
  rhsNonContracting := [3]
  lhsBatch := [0, 1]
  rhsBatch := [0, 1]
  wf := dot_S1024x8x64x64_S1024x8x64x32_S1024x8x64x32_3_2_2_3_01_01_wf
def dot_S4x128x256x128_S4x128x256x128_S4x128x256x256_3_3_2_2_01_01 : DotDims S4x128x256x128 S4x128x256x128 S4x128x256x256 where
  lhsContracting := [3]
  rhsContracting := [3]
  lhsNonContracting := [2]
  rhsNonContracting := [2]
  lhsBatch := [0, 1]
  rhsBatch := [0, 1]
  wf := dot_S4x128x256x128_S4x128x256x128_S4x128x256x256_3_3_2_2_01_01_wf
def dot_S4x128x256x256_S4x128x256x128_S4x128x256x128_3_2_2_3_01_01 : DotDims S4x128x256x256 S4x128x256x128 S4x128x256x128 where
  lhsContracting := [3]
  rhsContracting := [2]
  lhsNonContracting := [2]
  rhsNonContracting := [3]
  lhsBatch := [0, 1]
  rhsBatch := [0, 1]
  wf := dot_S4x128x256x256_S4x128x256x128_S4x128x256x128_3_2_2_3_01_01_wf

class Facts : Prop extends Facts₀ where

variable [Facts]
-- ==== Proof.AttnSpec.lean ====
/-
  Scaled dot-product attention, one output entry at a time, on the extended reals.

  For a query row `q`, key rows `k j` and the value column `v j`, with a scale `c`:
    score j   = (∑ d, q d * k j d) * c
    rowMax    = max (-∞) (the running maximum of the scores, started from -∞)
    weight j  = exp (score j - rowMax) / ∑ j', exp (score j' - rowMax)
    output    = ∑ j, weight j * v j
  Both programs of this certificate compute exactly this, entry by entry: the kernel on blocks of a
  batch that has been flattened to one axis, the reference on the batch with its two axes kept apart.
  `attn3` is the function over a rank-3 array [batch, row, feature], `attn4` the one over a rank-4
  array [outer, inner, row, feature]; `attn3c` / `attn4c` take the coordinates one by one.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The pattern both programs start a row's maximum from (f32's -∞). -/
abbrev negInf : EReal := Ideal.ofBits .f32 0xFF800000#32
/-- The scale of the window attention (the f32 nearest 1/√32), the same pattern in both programs. -/
abbrev scaleWin : EReal := Ideal.ofBits .f32 0x3E3504F3#32
/-- The scale of the channel attention (the f32 nearest 1/√128), the same pattern in both programs. -/
abbrev scaleChan : EReal := Ideal.ofBits .f32 0x3DB504F3#32

/-- A row's maximum as both programs take it: the fold of `max` from -∞, then `max` with -∞ once more. -/
def rowMax {K : ℕ} (s : Fin K → EReal) : EReal := max negInf (Finset.univ.fold max negInf s)

/-- The softmax weight of position `j` in a row of scores. -/
def softmaxRow {K : ℕ} (s : Fin K → EReal) (j : Fin K) : EReal :=
  Ideal.div (Ideal.exp (s j - rowMax s)) (∑ j' : Fin K, Ideal.exp (s j' - rowMax s))

/-- The scaled inner product of a query row and a key row. -/
def score {D : ℕ} (c : EReal) (q k : Fin D → EReal) : EReal := (∑ d : Fin D, q d * k d) * c

/-- One entry of the attention output: the softmax weights of the query against every key, times the value column. -/
def attnRow {K D : ℕ} (c : EReal) (q : Fin D → EReal) (k : Fin K → Fin D → EReal) (v : Fin K → EReal) : EReal :=
  ∑ j : Fin K, softmaxRow (fun j' => score c q (k j')) j * v j

/-- Attention over a rank-3 array [batch, row, feature], at coordinates. -/
def attn3c {B L D : ℕ} (c : EReal) (q k v : (⟨3, ![B, L, D]⟩ : Shape).Idx → EReal) (b : Fin B) (r : Fin L) (e : Fin D) : EReal :=
  attnRow c (fun d => q (ix3 b r d)) (fun j d => k (ix3 b j d)) (fun j => v (ix3 b j e))

/-- Attention over a rank-3 array [batch, row, feature]. -/
def attn3 {B L D : ℕ} (c : EReal) (q k v : (⟨3, ![B, L, D]⟩ : Shape).Idx → EReal) : (⟨3, ![B, L, D]⟩ : Shape).Idx → EReal :=
  fun i => attn3c c q k v (i 0) (i 1) (i 2)

theorem attn3_ix3 {B L D : ℕ} (c : EReal) (q k v : (⟨3, ![B, L, D]⟩ : Shape).Idx → EReal) (b : Fin B) (r : Fin L) (e : Fin D) :
    attn3 c q k v (ix3 b r e) = attn3c c q k v b r e := rfl

/-- Attention over a rank-4 array [outer, inner, row, feature], at coordinates. -/
def attn4c {N H L D : ℕ} (c : EReal) (q k v : (⟨4, ![N, H, L, D]⟩ : Shape).Idx → EReal) (n : Fin N) (h : Fin H) (r : Fin L) (e : Fin D) : EReal :=
  attnRow c (fun d => q (ix4 n h r d)) (fun j d => k (ix4 n h j d)) (fun j => v (ix4 n h j e))

/-- Attention over a rank-4 array [outer, inner, row, feature]. -/
def attn4 {N H L D : ℕ} (c : EReal) (q k v : (⟨4, ![N, H, L, D]⟩ : Shape).Idx → EReal) : (⟨4, ![N, H, L, D]⟩ : Shape).Idx → EReal :=
  fun i => attn4c c q k v (i 0) (i 1) (i 2) (i 3)

theorem attn4_ix4 {N H L D : ℕ} (c : EReal) (q k v : (⟨4, ![N, H, L, D]⟩ : Shape).Idx → EReal) (n : Fin N) (h : Fin H) (r : Fin L) (e : Fin D) :
    attn4 c q k v (ix4 n h r e) = attn4c c q k v n h r e := rfl

/-- An entry depends on the arrays only through the batch slice it sits in: two triples of arrays that agree on
    slice `b` and slice `b'` respectively give the same entry. -/
theorem attn3c_congr {B B' L D : ℕ} (c : EReal) (q k v : (⟨3, ![B, L, D]⟩ : Shape).Idx → EReal)
    (q' k' v' : (⟨3, ![B', L, D]⟩ : Shape).Idx → EReal) (b : Fin B) (b' : Fin B')
    (hq : ∀ r d, q (ix3 b r d) = q' (ix3 b' r d)) (hk : ∀ r d, k (ix3 b r d) = k' (ix3 b' r d))
    (hv : ∀ r d, v (ix3 b r d) = v' (ix3 b' r d)) (r : Fin L) (e : Fin D) :
    attn3c c q k v b r e = attn3c c q' k' v' b' r e := by
  unfold attn3c
  simp only [hq, hk, hv]

/-- The same between a rank-3 array's slice `b` and a rank-4 array's slice `(n, h)`. -/
theorem attn3c_eq_attn4c {B N H L D : ℕ} (c : EReal) (q k v : (⟨3, ![B, L, D]⟩ : Shape).Idx → EReal)
    (q' k' v' : (⟨4, ![N, H, L, D]⟩ : Shape).Idx → EReal) (b : Fin B) (n : Fin N) (h : Fin H)
    (hq : ∀ r d, q (ix3 b r d) = q' (ix4 n h r d)) (hk : ∀ r d, k (ix3 b r d) = k' (ix4 n h r d))
    (hv : ∀ r d, v (ix3 b r d) = v' (ix4 n h r d)) (r : Fin L) (e : Fin D) :
    attn3c c q k v b r e = attn4c c q' k' v' n h r e := by
  unfold attn3c attn4c
  simp only [hq, hk, hv]

end Cert.Attn

end
-- ==== Proof.LibFlattenBatch.lean ====
/-
  Flattening two leading axes into one, read at an index, for any extents.

  A rank-4 array [N, H, A, B] and the rank-3 array [N * H, A, B] with the same row-major order hold the same entries:
  entry (n, h, i, j) of the one is entry (n * H + h, i, j) of the other. The two casts are read at coordinates
  (`shapeCast_nhab_mab_apply`, `shapeCast_mab_nhab_apply`), and attention, whose entries depend only on their own
  batch slice, commutes with the flattening (`attn_flatten`): attention over the flattened batch, cast back, is
  attention over the batch with its two axes kept apart.
-/
import proofs.«136589_j42305427866177_1_alg».proof.Proof.AttnSpec
import Idealize.ShloMosaic.Lib.ValueIdx
import Idealize.ShloMosaic.Lib.Pipeline.Value

noncomputable section

namespace Cert.Attn

open Idealize.ShloMosaic Idealize.ShloMosaic.ValueIdx

variable {α : Type}

/-- The flattened batch coordinate of (n, h) lies inside N * H. -/
theorem flat_lt {N H : ℕ} (n : Fin N) (h : Fin H) : n.val * H + h.val < N * H :=
  Nat.lt_of_lt_of_le (Nat.add_lt_add_left h.isLt _) (by rw [← Nat.succ_mul]; exact Nat.mul_le_mul_right _ n.isLt)

/-- The flattened batch coordinate of (n, h). -/
abbrev flat {N H : ℕ} (n : Fin N) (h : Fin H) : Fin (N * H) := ⟨n.val * H + h.val, flat_lt n h⟩

/-- An [N, H, A, B] array cast to [N * H, A, B] reads, at (n * H + h, i, j), the operand at (n, h, i, j). -/
theorem shapeCast_nhab_mab_apply {N H A B : ℕ} (x : (⟨4, ![N, H, A, B]⟩ : Shape).Idx → α)
    (hc : (⟨4, ![N, H, A, B]⟩ : Shape).ShapeCasts ⟨3, ![N * H, A, B]⟩) (n : Fin N) (h : Fin H) (i : Fin A) (j : Fin B) :
    shapeCast ⟨3, ![N * H, A, B]⟩ x hc (ix3 (flat n h) i j) = x (ix4 n h i j) :=
  shapeCast_apply x hc _ _ (by
    rw [Shape.rowMajor_val_four, Shape.rowMajor_val_three]
    rfl)

/-- An [N * H, A, B] array cast to [N, H, A, B] reads, at (n, h, i, j), the operand at (n * H + h, i, j). -/
theorem shapeCast_mab_nhab_apply {N H A B : ℕ} (x : (⟨3, ![N * H, A, B]⟩ : Shape).Idx → α)
    (hc : (⟨3, ![N * H, A, B]⟩ : Shape).ShapeCasts ⟨4, ![N, H, A, B]⟩) (n : Fin N) (h : Fin H) (i : Fin A) (j : Fin B) :
    shapeCast ⟨4, ![N, H, A, B]⟩ x hc (ix4 n h i j) = x (ix3 (flat n h) i j) :=
  shapeCast_apply x hc _ _ (by
    rw [Shape.rowMajor_val_four, Shape.rowMajor_val_three]
    rfl)

/-- Attention over the flattened batch, cast back to two batch axes, is attention over the two batch axes:
    entry (n, h, r, e) reads slice n * H + h of the flattened arrays, which is slice (n, h) of the originals. -/
theorem attn_flatten {N H L D : ℕ} (c : EReal) (q k v : (⟨4, ![N, H, L, D]⟩ : Shape).Idx → EReal)
    (h43 : (⟨4, ![N, H, L, D]⟩ : Shape).ShapeCasts ⟨3, ![N * H, L, D]⟩)
    (h34 : (⟨3, ![N * H, L, D]⟩ : Shape).ShapeCasts ⟨4, ![N, H, L, D]⟩) :
    shapeCast ⟨4, ![N, H, L, D]⟩
        (attn3 c (shapeCast ⟨3, ![N * H, L, D]⟩ q h43) (shapeCast ⟨3, ![N * H, L, D]⟩ k h43)
          (shapeCast ⟨3, ![N * H, L, D]⟩ v h43)) h34
      = attn4 c q k v := by
  funext i
  obtain ⟨n, h, r, e, rfl⟩ : ∃ (n : Fin N) (h : Fin H) (r : Fin L) (e : Fin D), i = ix4 n h r e :=
    ⟨i 0, i 1, i 2, i 3, eq_ix4 i⟩
  rw [shapeCast_mab_nhab_apply, attn3_ix3, attn4_ix4]
  exact attn3c_eq_attn4c c _ _ _ q k v (flat n h) n h
    (fun r' d' => shapeCast_nhab_mab_apply q h43 n h r' d')
    (fun r' d' => shapeCast_nhab_mab_apply k h43 n h r' d')
    (fun r' d' => shapeCast_nhab_mab_apply v h43 n h r' d') r e

end Cert.Attn

end
-- ==== Proof.Fold.lean ====
/-
  The kernel program's result, read back through @main.

  @main re-lays the first input into windows (`relay`: 4 x 256 x 128 x 128 -> 1024 x 8 x 64 x 32), flattens the batch,
  runs the window-attention region, un-flattens and lays the result back (`unrelay`); it swaps axes 1 and 2 of three
  inputs (`swap12`), flattens their batch, runs the channel-attention region, un-flattens and swaps back (`unswap12`);
  and adds the two. Read at the buffers, the result is that sum over the two regions' output arrays, and each region's
  input arrays are those re-laid launch arrays.
-/
import proofs.«136589_j42305427866177_1_alg».proof.Proof.Gen.KernelIdeal.Frame
import Idealize.ShloMosaic.Lib.StableHlo.Run

set_option maxRecDepth 16384

noncomputable section

namespace Cert.KernelIdeal.FoldValue

open Idealize.ShloMosaic Idealize.ShloMosaic.TcCoe Idealize.SL.Sem Idealize.ShloMosaic.StableHlo
open Cert.KernelIdeal Cert.KernelIdeal.Gen

variable {F : FTy → Type} [FloatOps F]

/-- The input laid out in windows: batch (image, window row, window column) x head x position x feature. -/
def relay (x : (⟨S4x256x128x128, .f32⟩ : BufTy).Contents (Elt F)) : (⟨S1024x8x64x32, .f32⟩ : BufTy).Contents (Elt F) :=
  shapeCast _ (transpose S4x16x16x8x8x8x32 [0, 3, 5, 1, 4, 6, 2] (shapeCast _ x shapeCasts_S4x256x128x128_S4x8x32x16x8x16x8)
    transposes_S4x8x32x16x8x16x8_S4x16x16x8x8x8x32_0_3_5_1_4_6_2) shapeCasts_S4x16x16x8x8x8x32_S1024x8x64x32

/-- The windows laid back into an image. -/
def unrelay (y : (⟨S1024x8x64x32, .f32⟩ : BufTy).Contents (Elt F)) : (⟨S4x256x128x128, .f32⟩ : BufTy).Contents (Elt F) :=
  shapeCast _ (transpose S4x8x32x16x8x16x8 [0, 3, 6, 1, 4, 2, 5] (shapeCast _ y shapeCasts_S1024x8x64x32_S4x16x16x8x8x8x32)
    transposes_S4x16x16x8x8x8x32_S4x8x32x16x8x16x8_0_3_6_1_4_2_5) shapeCasts_S4x8x32x16x8x16x8_S4x256x128x128

/-- Axes 1 and 2 swapped: channel x row -> row x channel. -/
def swap12 (x : (⟨S4x256x128x128, .f32⟩ : BufTy).Contents (Elt F)) : (⟨S4x128x256x128, .f32⟩ : BufTy).Contents (Elt F) :=
  transpose S4x128x256x128 [0, 2, 1, 3] x transposes_S4x256x128x128_S4x128x256x128_0_2_1_3

/-- … and swapped back. -/
def unswap12 (y : (⟨S4x128x256x128, .f32⟩ : BufTy).Contents (Elt F)) : (⟨S4x256x128x128, .f32⟩ : BufTy).Contents (Elt F) :=
  transpose S4x256x128x128 [0, 2, 1, 3] y transposes_S4x128x256x128_S4x256x128x128_0_2_1_3

variable (m : (ℓ : Loc nD τ sig) → Buf (Elt F) ℓ) (ρ : Dev nD → PrngReg)

/-- The window region's input array: the first launch array re-laid, its batch flattened. -/
theorem V1_main_v3 (c : Dev nD) :
    V1 m ρ c main_v3 = shapeCast S8192x64x32 (relay (m ((c : Thread nD τ).loc main_arg0))) shapeCasts_S1024x8x64x32_S8192x64x32 := by
  show StableHlo.after hostOps0 (W0 m ρ c) (Proc.devRef .tc main_v3) = _
  after_results
  rfl

/-- A launch array is still in place when the second stretch of host operations reads it. -/
theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The channel region's three input arrays: launch arrays 0, 1, 3 with axes 1 and 2 swapped, the batch flattened. -/
theorem V3_main_v10 (c : Dev nD) :
    V3 m ρ c main_v10 = shapeCast S512x256x128 (swap12 (m ((c : Thread nD τ).loc main_arg0))) shapeCasts_S4x128x256x128_S512x256x128 := by
  show StableHlo.after hostOps1 (W2 m ρ c) (Proc.devRef .tc main_v10) = _
  after_results
  rw [W2_arg0]
  rfl
theorem V3_main_v12 (c : Dev nD) :
    V3 m ρ c main_v12 = shapeCast S512x256x128 (swap12 (m ((c : Thread nD τ).loc main_arg1))) shapeCasts_S4x128x256x128_S512x256x128 := by
  show StableHlo.after hostOps1 (W2 m ρ c) (Proc.devRef .tc main_v12) = _
  after_results
  rw [W2_arg1]
  rfl
theorem V3_main_v14 (c : Dev nD) :
    V3 m ρ c main_v14 = shapeCast S512x256x128 (swap12 (m ((c : Thread nD τ).loc main_arg3))) shapeCasts_S4x128x256x128_S512x256x128 := by
  show StableHlo.after hostOps1 (W2 m ρ c) (Proc.devRef .tc main_v14) = _
  after_results
  rw [W2_arg3]
  rfl

/-- The window part of the result: the window region's output array, un-flattened and laid back. -/
theorem W4_main_v8 (c : Dev nD) :
    W4 m ρ c (Proc.devRef .tc main_v8)
      = unrelay (shapeCast S1024x8x64x32 ((dat0 (V1 m ρ) c).arrAt 1 cfg0.N) shapeCasts_S8192x64x32_S1024x8x64x32) := by
  rw [W4_of_ne m ρ c main_v8 (by decide)]
  show StableHlo.after hostOps1 (W2 m ρ c) (Proc.devRef .tc main_v8) = _
  after_results
  rw [show W2 m ρ c (Proc.devRef .tc main_v4) = (dat0 (V1 m ρ) c).arrAt 1 cfg0.N from W2_arr m ρ c 1]
  rfl

/-- THE RESULT: the two parts added. -/
theorem W5_main_v18 (c : Dev nD) :
    W5 m ρ c (Proc.devRef .tc main_v18)
      = addf (unrelay (shapeCast S1024x8x64x32 ((dat0 (V1 m ρ) c).arrAt 1 cfg0.N) shapeCasts_S8192x64x32_S1024x8x64x32))
          (unswap12 (shapeCast S4x128x256x128 ((dat1 (V3 m ρ) c).arrAt 3 cfg1.N) shapeCasts_S512x256x128_S4x128x256x128)) := by
  show StableHlo.after hostOps2 (W4 m ρ c) (Proc.devRef .tc main_v18) = _
  after_results
  rw [W4_main_v8, show W4 m ρ c (Proc.devRef .tc main_v15) = (dat1 (V3 m ρ) c).arrAt 3 cfg1.N from W4_arr m ρ c 3]
  rfl

end Cert.KernelIdeal.FoldValue

end
-- ==== Proof.WinPay.lean ====
/-
  The window-attention kernel body, read at an index.
  The body's stored value, as one pure function of the block it loads, is attention of the block with itself:
  entry (b, r, e) of the result is the softmax of row r's scaled scores against every row of slice b, times column e.
-/
import proofs.«136589_j42305427866177_1_alg».proof.Proof.Gen.KernelIdeal.Skeleton
import proofs.«136589_j42305427866177_1_alg».proof.Proof.AttnSpec
import Idealize.ShloMosaic.Lib.ValueIdx
import Idealize.ShloMosaic.Lib.Pipeline.Value
import Idealize.ShloMosaic.PureOps.Ideal.Laws

noncomputable section

namespace Cert.KernelIdeal.WinValue

open Idealize.ShloMosaic Idealize.ShloMosaic.ValueIdx Cert.KernelIdeal Cert.KernelIdeal.Gen

/-! ## The scores: rows of the block against rows of the block, summed over the feature axis -/

theorem lhs_scores_0 (i : S256x64x64.Idx) (q : dot_S256x64x32_S256x64x32_S256x64x64_2_2_1_1_0_0.contr.Idx) :
    (dot_S256x64x32_S256x64x32_S256x64x64_2_2_1_1_0_0.lhsIdx i q 0).val = (i 0).val := by
  unfold DotDims.lhsIdx
  rw [dif_pos (show (0 : Fin S256x64x32.rank) ∈ dot_S256x64x32_S256x64x32_S256x64x64_2_2_1_1_0_0.lhsBatch by decide)]
  rfl
theorem lhs_scores_1 (i : S256x64x64.Idx) (q : dot_S256x64x32_S256x64x32_S256x64x64_2_2_1_1_0_0.contr.Idx) :
    (dot_S256x64x32_S256x64x32_S256x64x64_2_2_1_1_0_0.lhsIdx i q 1).val = (i 1).val := by
  unfold DotDims.lhsIdx
  rw [dif_neg (show ¬(1 : Fin S256x64x32.rank) ∈ dot_S256x64x32_S256x64x32_S256x64x64_2_2_1_1_0_0.lhsBatch by decide), dif_pos (show (1 : Fin S256x64x32.rank) ∈ dot_S256x64x32_S256x64x32_S256x64x64_2_2_1_1_0_0.lhsNonContracting by decide)]
  rfl
theorem lhs_scores_2 (i : S256x64x64.Idx) (q : dot_S256x64x32_S256x64x32_S256x64x64_2_2_1_1_0_0.contr.Idx) :
    (dot_S256x64x32_S256x64x32_S256x64x64_2_2_1_1_0_0.lhsIdx i q 2).val = (q ⟨0, by decide⟩).val :=
  dot_S256x64x32_S256x64x32_S256x64x64_2_2_1_1_0_0.lhsIdx_val_of_single rfl i q
theorem rhs_scores_0 (i : S256x64x64.Idx) (q : dot_S256x64x32_S256x64x32_S256x64x64_2_2_1_1_0_0.contr.Idx) :
    (dot_S256x64x32_S256x64x32_S256x64x64_2_2_1_1_0_0.rhsIdx i q 0).val = (i 0).val := by
  unfold DotDims.rhsIdx
  rw [dif_pos (show (0 : Fin S256x64x32.rank) ∈ dot_S256x64x32_S256x64x32_S256x64x64_2_2_1_1_0_0.rhsBatch by decide)]
  rfl
theorem rhs_scores_1 (i : S256x64x64.Idx) (q : dot_S256x64x32_S256x64x32_S256x64x64_2_2_1_1_0_0.contr.Idx) :
    (dot_S256x64x32_S256x64x32_S256x64x64_2_2_1_1_0_0.rhsIdx i q 1).val = (i 2).val := by
  unfold DotDims.rhsIdx
  rw [dif_neg (show ¬(1 : Fin S256x64x32.rank) ∈ dot_S256x64x32_S256x64x32_S256x64x64_2_2_1_1_0_0.rhsBatch by decide), dif_pos (show (1 : Fin S256x64x32.rank) ∈ dot_S256x64x32_S256x64x32_S256x64x64_2_2_1_1_0_0.rhsNonContracting by decide)]
  rfl
theorem rhs_scores_2 (i : S256x64x64.Idx) (q : dot_S256x64x32_S256x64x32_S256x64x64_2_2_1_1_0_0.contr.Idx) :
    (dot_S256x64x32_S256x64x32_S256x64x64_2_2_1_1_0_0.rhsIdx i q 2).val = (q ⟨0, by decide⟩).val :=
  dot_S256x64x32_S256x64x32_S256x64x64_2_2_1_1_0_0.rhsIdx_val_of_single rfl i q

/-- Entry (b, r, k) of the first product is the inner product of row r and row k of slice b. -/
theorem scores_apply (y z : FVec Ideal S256x64x32 .bf16) (b : Fin 256) (r k : Fin 64) :
    matmul dot_S256x64x32_S256x64x32_S256x64x64_2_2_1_1_0_0 none y z (constant S256x64x64 .f32 0x00000000#32) (ix3 b r k)
      = ∑ d : Fin 32, y (ix3 b r d) * z (ix3 b k d) := by
  refine (Ideal.matmul_constant_zero_apply dot_S256x64x32_S256x64x32_S256x64x64_2_2_1_1_0_0 none y z (ix3 b r k)).trans ?_
  rw [← Equiv.sum_comp (ValueIdx.contrEquiv1 dot_S256x64x32_S256x64x32_S256x64x64_2_2_1_1_0_0 32 rfl rfl).symm]
  refine Finset.sum_congr rfl fun d _ => ?_
  have hd := ValueIdx.contrEquiv1_symm_val dot_S256x64x32_S256x64x32_S256x64x64_2_2_1_1_0_0 32 rfl rfl d
  have el : dot_S256x64x32_S256x64x32_S256x64x64_2_2_1_1_0_0.lhsIdx (ix3 b r k) ((ValueIdx.contrEquiv1 dot_S256x64x32_S256x64x32_S256x64x64_2_2_1_1_0_0 32 rfl rfl).symm d) = ix3 b r d := funext fun a => Fin.ext (by
    match a with
    | ⟨0, _⟩ => exact lhs_scores_0 _ _
    | ⟨1, _⟩ => exact lhs_scores_1 _ _
    | ⟨2, _⟩ => exact (lhs_scores_2 _ _).trans hd)
  have er : dot_S256x64x32_S256x64x32_S256x64x64_2_2_1_1_0_0.rhsIdx (ix3 b r k) ((ValueIdx.contrEquiv1 dot_S256x64x32_S256x64x32_S256x64x64_2_2_1_1_0_0 32 rfl rfl).symm d) = ix3 b k d := funext fun a => Fin.ext (by
    match a with
    | ⟨0, _⟩ => exact rhs_scores_0 _ _
    | ⟨1, _⟩ => exact rhs_scores_1 _ _
    | ⟨2, _⟩ => exact (rhs_scores_2 _ _).trans hd)
  rw [el, er]

/-! ## The softmax of a score array, as the body spells it -/

/-- A row's maximum as the body takes it: the lane maximum started from -∞, then `max` with -∞ once more. -/
abbrev rowMaxK (s : FVec Ideal S256x64x64 .f32) : FVec Ideal S256x64 .f32 :=
  maximumf (broadcast S256x64 (Scalar.ofBits (F := Ideal) .f32 0xFF800000#32))
    (multiReduction .maximumf [2] S256x64 s 0xFF800000#32 reduces_S256x64x64_S256x64 (.inl rfl) rfl)

/-- A per-row value spread back along the key axis: [256,64] → [256,64,1] → [256,64,64]. -/
abbrev spread (v : FVec Ideal S256x64 .f32) : FVec Ideal S256x64x64 .f32 :=
  broadcastTo S256x64x64 (shapeCast S256x64x1 v shapeCasts_S256x64_S256x64x1) broadcasts_S256x64x1_S256x64x64

/-- The exponentials of the scores shifted by their row's maximum. -/
abbrev expK (s : FVec Ideal S256x64x64 .f32) : FVec Ideal S256x64x64 .f32 :=
  exp (subf s (spread (rowMaxK s)))

/-- The softmax weights: each exponential over its row's sum. -/
abbrev softmaxK (s : FVec Ideal S256x64x64 .f32) : FVec Ideal S256x64x64 .f32 :=
  divf (expK s) (spread (multiReduction .add [2] S256x64 (expK s) 0x00000000#32 reduces_S256x64x64_S256x64 (.inl rfl) rfl))

/-- The spread value at (b, r, k) is the per-row value at (b, r). -/
theorem spread_apply (v : FVec Ideal S256x64 .f32) (b : Fin 256) (r k : Fin 64) :
    spread v (ix3 b r k) = v (ix2 b r) := by
  refine (broadcastTo_apply _ broadcasts_S256x64x1_S256x64x64 (ix3 b r k) (ix3 b r (0 : Fin 1)) (fun a => match a with
    | ⟨0, _⟩ => by show b.val = if (256 : Nat) = 1 then 0 else b.val; rw [if_neg (by decide)]
    | ⟨1, _⟩ => by show r.val = if (64 : Nat) = 1 then 0 else r.val; rw [if_neg (by decide)]
    | ⟨2, _⟩ => by show 0 = if (1 : Nat) = 1 then 0 else k.val; rw [if_pos rfl])).trans ?_
  exact shapeCast_apply v shapeCasts_S256x64_S256x64x1 (ix3 b r (0 : Fin 1)) (ix2 b r) (by
    rw [Shape.rowMajor_val_two, Shape.rowMajor_val_three]
    show b.val * 64 + r.val = (b.val * 64 + r.val) * 1 + 0
    omega)

/-- The index the lane reduction inserts coordinate k into, at (b, r), is (b, r, k). -/
theorem lift_ix (b : Fin 256) (r k : Fin 64) :
    reduces_S256x64x64_S256x64.lift (ix2 b r) k = ix3 b r k :=
  funext fun a => Fin.ext (by match a with | ⟨0, _⟩ => rfl | ⟨1, _⟩ => rfl | ⟨2, _⟩ => rfl)

/-- The lane maximum of a score array at (b, r): the fold of `max` from -∞ over row r of slice b. -/
theorem laneMax_apply (s : FVec Ideal S256x64x64 .f32) (b : Fin 256) (r : Fin 64) :
    multiReduction .maximumf [2] S256x64 s 0xFF800000#32 reduces_S256x64x64_S256x64 (.inl rfl) rfl (ix2 b r)
      = (Finset.univ : Finset (Fin 64)).fold max Cert.Attn.negInf (fun k => s (ix3 b r k)) := by
  refine (Ideal.multiReduction_maximumf_single s 0xFF800000#32 reduces_S256x64x64_S256x64 (.inl rfl) rfl (ix2 b r)).trans ?_
  rw [Ideal.ofBits_def]
  exact congrArg (Finset.univ.fold max Cert.Attn.negInf) (funext fun k => congrArg s (lift_ix b r k))

/-- The body's row maximum at (b, r) is the row maximum of row r of slice b. -/
theorem rowMaxK_apply (s : FVec Ideal S256x64x64 .f32) (b : Fin 256) (r : Fin 64) :
    rowMaxK s (ix2 b r) = Cert.Attn.rowMax (fun k => s (ix3 b r k)) := by
  unfold Cert.Attn.rowMax
  refine (maximumf_apply _ _ _).trans ?_
  rw [broadcast_apply, Ideal.ofBits_def, laneMax_apply]

/-- The shifted exponential at (b, r, k). -/
theorem expK_apply (s : FVec Ideal S256x64x64 .f32) (b : Fin 256) (r k : Fin 64) :
    expK s (ix3 b r k) = Ideal.exp (s (ix3 b r k) - Cert.Attn.rowMax (fun k' => s (ix3 b r k'))) := by
  show FloatOps.exp (subf s (spread (rowMaxK s)) (ix3 b r k)) = _
  rw [Ideal.exp_def, subf_apply, spread_apply, rowMaxK_apply]

/-- The lane sum of an array at (b, r): the sum over row r of slice b. -/
theorem rowSum_apply (w : FVec Ideal S256x64x64 .f32) (b : Fin 256) (r : Fin 64) :
    multiReduction .add [2] S256x64 w 0x00000000#32 reduces_S256x64x64_S256x64 (.inl rfl) rfl (ix2 b r)
      = ∑ k : Fin 64, w (ix3 b r k) := by
  refine (Ideal.multiReduction_add_single w 0x00000000#32 reduces_S256x64x64_S256x64 (.inl rfl) rfl (ix2 b r)).trans ?_
  exact Finset.sum_congr rfl fun k _ => congrArg w (lift_ix b r k)

/-- The body's softmax weight at (b, r, k) is the softmax weight of position k in row r of slice b. -/
theorem softmaxK_apply (s : FVec Ideal S256x64x64 .f32) (b : Fin 256) (r k : Fin 64) :
    softmaxK s (ix3 b r k) = Cert.Attn.softmaxRow (fun k' => s (ix3 b r k')) k := by
  unfold Cert.Attn.softmaxRow
  refine (divf_apply _ _ _).trans ?_
  exact congrArg₂ Ideal.div (expK_apply s b r k)
    (((spread_apply _ b r k).trans (rowSum_apply (expK s) b r)).trans
      (Finset.sum_congr rfl fun j' _ => expK_apply s b r j'))

/-! ## The scaled scores -/

/-- Entry (b, r, k) of the scaled first product is the scaled inner product of row r and row k of slice b. -/
theorem scaled_scores_apply (y z : FVec Ideal S256x64x32 .bf16) (b : Fin 256) (r k : Fin 64) :
    mulf (matmul dot_S256x64x32_S256x64x32_S256x64x64_2_2_1_1_0_0 none y z (constant S256x64x64 .f32 0x00000000#32))
        (broadcast S256x64x64 (Scalar.ofBits (F := Ideal) .f32 0x3E3504F3#32)) (ix3 b r k)
      = Cert.Attn.score Cert.Attn.scaleWin (fun d => y (ix3 b r d)) (fun d => z (ix3 b k d)) := by
  unfold Cert.Attn.score
  rw [mulf_apply, broadcast_apply, Ideal.ofBits_def, scores_apply]

/-! ## The output: the weights against the block, summed over the key axis -/

theorem lhs_out_0 (i : S256x64x32.Idx) (q : dot_S256x64x64_S256x64x32_S256x64x32_2_1_1_2_0_0.contr.Idx) :
    (dot_S256x64x64_S256x64x32_S256x64x32_2_1_1_2_0_0.lhsIdx i q 0).val = (i 0).val := by
  unfold DotDims.lhsIdx
  rw [dif_pos (show (0 : Fin S256x64x64.rank) ∈ dot_S256x64x64_S256x64x32_S256x64x32_2_1_1_2_0_0.lhsBatch by decide)]
  rfl
theorem lhs_out_1 (i : S256x64x32.Idx) (q : dot_S256x64x64_S256x64x32_S256x64x32_2_1_1_2_0_0.contr.Idx) :
    (dot_S256x64x64_S256x64x32_S256x64x32_2_1_1_2_0_0.lhsIdx i q 1).val = (i 1).val := by
  unfold DotDims.lhsIdx
  rw [dif_neg (show ¬(1 : Fin S256x64x64.rank) ∈ dot_S256x64x64_S256x64x32_S256x64x32_2_1_1_2_0_0.lhsBatch by decide), dif_pos (show (1 : Fin S256x64x64.rank) ∈ dot_S256x64x64_S256x64x32_S256x64x32_2_1_1_2_0_0.lhsNonContracting by decide)]
  rfl
theorem lhs_out_2 (i : S256x64x32.Idx) (q : dot_S256x64x64_S256x64x32_S256x64x32_2_1_1_2_0_0.contr.Idx) :
    (dot_S256x64x64_S256x64x32_S256x64x32_2_1_1_2_0_0.lhsIdx i q 2).val = (q ⟨0, by decide⟩).val :=
  dot_S256x64x64_S256x64x32_S256x64x32_2_1_1_2_0_0.lhsIdx_val_of_single rfl i q
theorem rhs_out_0 (i : S256x64x32.Idx) (q : dot_S256x64x64_S256x64x32_S256x64x32_2_1_1_2_0_0.contr.Idx) :
    (dot_S256x64x64_S256x64x32_S256x64x32_2_1_1_2_0_0.rhsIdx i q 0).val = (i 0).val := by
  unfold DotDims.rhsIdx
  rw [dif_pos (show (0 : Fin S256x64x32.rank) ∈ dot_S256x64x64_S256x64x32_S256x64x32_2_1_1_2_0_0.rhsBatch by decide)]
  rfl
theorem rhs_out_1 (i : S256x64x32.Idx) (q : dot_S256x64x64_S256x64x32_S256x64x32_2_1_1_2_0_0.contr.Idx) :
    (dot_S256x64x64_S256x64x32_S256x64x32_2_1_1_2_0_0.rhsIdx i q 1).val = (q ⟨0, by decide⟩).val :=
  dot_S256x64x64_S256x64x32_S256x64x32_2_1_1_2_0_0.rhsIdx_val_of_single rfl i q
theorem rhs_out_2 (i : S256x64x32.Idx) (q : dot_S256x64x64_S256x64x32_S256x64x32_2_1_1_2_0_0.contr.Idx) :
    (dot_S256x64x64_S256x64x32_S256x64x32_2_1_1_2_0_0.rhsIdx i q 2).val = (i 2).val := by
  unfold DotDims.rhsIdx
  rw [dif_neg (show ¬(2 : Fin S256x64x32.rank) ∈ dot_S256x64x64_S256x64x32_S256x64x32_2_1_1_2_0_0.rhsBatch by decide), dif_pos (show (2 : Fin S256x64x32.rank) ∈ dot_S256x64x64_S256x64x32_S256x64x32_2_1_1_2_0_0.rhsNonContracting by decide)]
  rfl

/-- Entry (b, r, e) of the second product is the sum over k of weight (b, r, k) times entry (b, k, e) of the block. -/
theorem out_apply (w : FVec Ideal S256x64x64 .bf16) (y : FVec Ideal S256x64x32 .bf16) (b : Fin 256) (r : Fin 64) (e : Fin 32) :
    matmul dot_S256x64x64_S256x64x32_S256x64x32_2_1_1_2_0_0 none w y (constant S256x64x32 .f32 0x00000000#32) (ix3 b r e)
      = ∑ k : Fin 64, w (ix3 b r k) * y (ix3 b k e) := by
  refine (Ideal.matmul_constant_zero_apply dot_S256x64x64_S256x64x32_S256x64x32_2_1_1_2_0_0 none w y (ix3 b r e)).trans ?_
  rw [← Equiv.sum_comp (ValueIdx.contrEquiv1 dot_S256x64x64_S256x64x32_S256x64x32_2_1_1_2_0_0 64 rfl rfl).symm]
  refine Finset.sum_congr rfl fun k _ => ?_
  have hk := ValueIdx.contrEquiv1_symm_val dot_S256x64x64_S256x64x32_S256x64x32_2_1_1_2_0_0 64 rfl rfl k
  have el : dot_S256x64x64_S256x64x32_S256x64x32_2_1_1_2_0_0.lhsIdx (ix3 b r e) ((ValueIdx.contrEquiv1 dot_S256x64x64_S256x64x32_S256x64x32_2_1_1_2_0_0 64 rfl rfl).symm k) = ix3 b r k := funext fun a => Fin.ext (by
    match a with
    | ⟨0, _⟩ => exact lhs_out_0 _ _
    | ⟨1, _⟩ => exact lhs_out_1 _ _
    | ⟨2, _⟩ => exact (lhs_out_2 _ _).trans hk)
  have er : dot_S256x64x64_S256x64x32_S256x64x32_2_1_1_2_0_0.rhsIdx (ix3 b r e) ((ValueIdx.contrEquiv1 dot_S256x64x64_S256x64x32_S256x64x32_2_1_1_2_0_0 64 rfl rfl).symm k) = ix3 b k e := funext fun a => Fin.ext (by
    match a with
    | ⟨0, _⟩ => exact rhs_out_0 _ _
    | ⟨1, _⟩ => exact (rhs_out_1 _ _).trans hk
    | ⟨2, _⟩ => exact rhs_out_2 _ _)
  rw [el, er]

/-! ## The body's value -/

/-- The body's stored value, with its shape casts to the same shape dropped: the weights of the scaled scores, against the block. -/
theorem pay_unfold (x : FVec Ideal S256x64x32 .f32) :
    k0_pay1 (F := Ideal) x
      = matmul dot_S256x64x64_S256x64x32_S256x64x32_2_1_1_2_0_0 none
          (truncf .bf16 (softmaxK (mulf (matmul dot_S256x64x32_S256x64x32_S256x64x64_2_2_1_1_0_0 none (truncf .bf16 x bitsLt_bf16_f32) (truncf .bf16 x bitsLt_bf16_f32) (constant S256x64x64 .f32 0x00000000#32))
              (broadcast S256x64x64 (Scalar.ofBits (F := Ideal) .f32 0x3E3504F3#32)))) bitsLt_bf16_f32)
          (truncf .bf16 x bitsLt_bf16_f32) (constant S256x64x32 .f32 0x00000000#32) := by
  unfold k0_pay1
  simp only [shapeCast_self]

/-- The stored value of the window kernel is attention of the loaded block with itself. -/
theorem pay_eq (x : FVec Ideal S256x64x32 .f32) :
    k0_pay1 (F := Ideal) x = Cert.Attn.attn3 Cert.Attn.scaleWin x x x := by
  funext i
  obtain ⟨b, r, e, rfl⟩ : ∃ (b : Fin 256) (r : Fin 64) (e : Fin 32), i = ix3 b r e := ⟨i 0, i 1, i 2, eq_ix3 i⟩
  rw [Cert.Attn.attn3_ix3, pay_unfold]
  unfold Cert.Attn.attn3c Cert.Attn.attnRow
  refine (out_apply _ _ b r e).trans ?_
  refine Finset.sum_congr rfl fun k _ => ?_
  refine congrArg (· * x (ix3 b k e)) ?_
  refine (softmaxK_apply _ b r k).trans ?_
  refine congrArg (fun s => Cert.Attn.softmaxRow s k) ?_
  funext j'
  exact scaled_scores_apply _ _ b r j'

end Cert.KernelIdeal.WinValue

end
-- ==== Proof.WinArray.lean ====
/-
  The window-attention region: from blocks to the whole array.
  Point t of the grid loads batch slices 256 t … 256 t + 255 of the input array and writes the same slices of the
  output array; an attention entry depends only on its own batch slice, so the output array, once every point has
  written back, is attention of the whole input array with itself.
-/
import proofs.«136589_j42305427866177_1_alg».proof.Proof.Gen.KernelIdeal.Frame
import proofs.«136589_j42305427866177_1_alg».proof.Proof.AttnSpec
import proofs.«136589_j42305427866177_1_alg».proof.Proof.WinPay
import Idealize.ShloMosaic.Lib.ValueIdx
import Idealize.ShloMosaic.Lib.Pipeline.Value

noncomputable section

namespace Cert.KernelIdeal.WinValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The body's one load and one store both start at the block's origin. -/
theorem origin : (![0, 0, 0] : Fin 3 → Nat) = fun _ => 0 := funext fun a => by fin_cases a <;> rfl

/-- The two index maps over the grid: at point `t` both the input's and the output's block sit at block `t` of the
    batch axis and at block 0 of the row and feature axes. -/
theorem index_at : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Entry (b, r, d) of the input's block at point `t` sits at entry (256 t + b, r, d) of the input array. -/
theorem emb_in (t : Fin cfg0.N) (b : Fin 256) (r : Fin 64) (d : Fin 32) (b' : Fin 8192)
    (hb : b'.val = 256 * t.val + b.val) :
    ((cfg0.win 0).blk t).view.emb (ix3 b r d) = ix3 b' r d := by
  obtain ⟨e0, e1, e2, -, -, -⟩ := index_at t
  funext a; apply Fin.ext
  match a with
  | ⟨0, _⟩ => show win0_0.index t (0 : Fin 3) * 256 + 1 * b.val = b'.val; omega
  | ⟨1, _⟩ => show win0_0.index t (1 : Fin 3) * 64 + 1 * r.val = r.val; omega
  | ⟨2, _⟩ => show win0_0.index t (2 : Fin 3) * 32 + 1 * d.val = d.val; omega

/-- Entry (b, r, d) of the output's block at point `t` sits at entry (256 t + b, r, d) of the output array. -/
theorem emb_out (t : Fin cfg0.N) (b : Fin 256) (r : Fin 64) (d : Fin 32) (b' : Fin 8192)
    (hb : b'.val = 256 * t.val + b.val) :
    ((cfg0.win 1).blk t).view.emb (ix3 b r d) = ix3 b' r d := by
  obtain ⟨-, -, -, e0, e1, e2⟩ := index_at t
  funext a; apply Fin.ext
  match a with
  | ⟨0, _⟩ => show win0_1.index t (0 : Fin 3) * 256 + 1 * b.val = b'.val; omega
  | ⟨1, _⟩ => show win0_1.index t (1 : Fin 3) * 64 + 1 * r.val = r.val; omega
  | ⟨2, _⟩ => show win0_1.index t (2 : Fin 3) * 32 + 1 * d.val = d.val; omega

/-- The input's block at point `t` is batch slices 256 t … 256 t + 255 of the input array. -/
theorem in_block (c : Dev nD) (t : Fin cfg0.N) (b : Fin 256) (r : Fin 64) (d : Fin 32) (b' : Fin 8192)
    (hb : b'.val = 256 * t.val + b.val) :
    iblk0 V c 0 t (ix3 b r d) = V c main_v3 (ix3 b' r d) := by
  unfold iblk0
  rw [View.read_apply]
  show V c main_v3 (((cfg0.win 0).blk t).view.emb (ix3 b r d)) = _
  rw [emb_in t b r d b' hb]

/-- What point `t` writes back is block `t` of attention of the whole input array with itself: attention of the
    block is attention of the array there, an entry depending only on its own batch slice. -/
theorem flushed_eq (c : Dev nD) (t : Fin cfg0.N) :
    (dat0 (F := Ideal) V c).flushed 1 t
      = ((cfg0.win 1).blk t).view.read (Elt Ideal)
          (Cert.Attn.attn3 Cert.Attn.scaleWin (V c main_v3) (V c main_v3) (V c main_v3)) := by
  show (cfg0.win 1).cut (grid0.coords t) ((dat0 V c).after 1 t) = _
  rw [after0_1]
  unfold out0_1
  rw [View.canon_unit_zero origin]
  simp only [View.ld_unit_zero (S := S256x64x32) origin]
  rw [pay_eq]
  funext j
  obtain ⟨b, r, e, rfl⟩ : ∃ (b : Fin 256) (r : Fin 64) (e : Fin 32), j = ix3 b r e := ⟨j 0, j 1, j 2, eq_ix3 j⟩
  have ht : t.val < 32 := lt_of_lt_of_eq t.isLt N_0
  have hlt : 256 * t.val + b.val < 8192 := by have := b.isLt; omega
  show Cert.Attn.attn3 Cert.Attn.scaleWin (iblk0 V c 0 t) (iblk0 V c 0 t) (iblk0 V c 0 t) (ix3 b r e)
     = Cert.Attn.attn3 Cert.Attn.scaleWin (V c main_v3) (V c main_v3) (V c main_v3)
         (((cfg0.win 1).blk t).view.emb (ix3 b r e))
  rw [emb_out t b r e ⟨256 * t.val + b.val, hlt⟩ rfl]
  show Cert.Attn.attn3c Cert.Attn.scaleWin (iblk0 V c 0 t) (iblk0 V c 0 t) (iblk0 V c 0 t) b r e
     = Cert.Attn.attn3c Cert.Attn.scaleWin (V c main_v3) (V c main_v3) (V c main_v3) ⟨256 * t.val + b.val, hlt⟩ r e
  exact Cert.Attn.attn3c_congr (B := 256) (B' := 8192) (L := 64) (D := 32) Cert.Attn.scaleWin
    (iblk0 V c 0 t) (iblk0 V c 0 t) (iblk0 V c 0 t) (V c main_v3) (V c main_v3) (V c main_v3)
    b ⟨256 * t.val + b.val, hlt⟩
    (fun r' d => in_block V c t b r' d _ rfl) (fun r' d => in_block V c t b r' d _ rfl)
    (fun r' d => in_block V c t b r' d _ rfl) r e

/-- An entry of the output array is in point `t`'s block iff each coordinate is in the block's range on its axis. -/
theorem mem_blk (t : Fin cfg0.N) (i : S8192x64x32.Idx) :
    i ∈ ((cfg0.win 1).blk t).view.set ↔ ∀ a : Fin 3, win0_1.index t a * S256x64x32.size a ≤ (i a).val
      ∧ (i a).val < win0_1.index t a * S256x64x32.size a + S256x64x32.size a := by
  show i ∈ ((View.whole main_v4).slice (win0_1.rect t)).set ↔ _
  rw [View.set_slice_whole, Rect.mem_set_unit]
  exact Iff.rfl

/-- Every entry of the output array is written back by some point: batch slice `b` by point `b / 256`. -/
theorem cover (i : S8192x64x32.Idx) :
    ∃ t : Fin cfg0.N, (cfg0.win 1).flush t = true ∧ i ∈ ((cfg0.win 1).blk t).view.set := by
  have h0 : (i 0).val < 8192 := (i 0).isLt
  have h1 : (i 1).val < 64 := (i 1).isLt
  have h2 : (i 2).val < 32 := (i 2).isLt
  have hq : (i 0).val / 256 < cfg0.N := by
    show (i 0).val / 256 < grid0.N
    rw [N_0]; omega
  refine ⟨⟨(i 0).val / 256, hq⟩, flush0_1 _, ?_⟩
  rw [mem_blk]
  obtain ⟨-, -, -, e0, e1, e2⟩ := index_at ⟨(i 0).val / 256, hq⟩
  have e0' : win0_1.index ⟨(i 0).val / 256, hq⟩ (0 : Fin 3) = (i 0).val / 256 := e0
  intro a
  match a with
  | ⟨0, _⟩ =>
    show win0_1.index ⟨(i 0).val / 256, hq⟩ (0 : Fin 3) * 256 ≤ (i 0).val
      ∧ (i 0).val < win0_1.index ⟨(i 0).val / 256, hq⟩ (0 : Fin 3) * 256 + 256
    omega
  | ⟨1, _⟩ =>
    show win0_1.index ⟨(i 0).val / 256, hq⟩ (1 : Fin 3) * 64 ≤ (i 1).val
      ∧ (i 1).val < win0_1.index ⟨(i 0).val / 256, hq⟩ (1 : Fin 3) * 64 + 64
    omega
  | ⟨2, _⟩ =>
    show win0_1.index ⟨(i 0).val / 256, hq⟩ (2 : Fin 3) * 32 ≤ (i 2).val
      ∧ (i 2).val < win0_1.index ⟨(i 0).val / 256, hq⟩ (2 : Fin 3) * 32 + 32
    omega

/-- After the region the output array holds attention of the input array (as the region found it) with itself. -/
theorem final (c : Dev nD) :
    (dat0 (F := Ideal) V c).arrAt 1 cfg0.N
      = Cert.Attn.attn3 Cert.Attn.scaleWin (V c main_v3) (V c main_v3) (V c main_v3) :=
  (dat0 V c).arrAt_eq_of_cover 1 _ (fun t _ => flushed_eq V c t) cover

end Cert.KernelIdeal.WinValue

end
-- ==== Proof.ChanPay.lean ====
/-
  The channel-attention kernel body, read at an index.
  The body's stored value, as one pure function of the three blocks it loads (queries, keys, values), is attention:
  entry (b, r, e) of the result is the softmax of query row r's scaled scores against every key row of slice b,
  times column e of the values.
-/
import proofs.«136589_j42305427866177_1_alg».proof.Proof.Gen.KernelIdeal.Skeleton
import proofs.«136589_j42305427866177_1_alg».proof.Proof.AttnSpec
import Idealize.ShloMosaic.Lib.ValueIdx
import Idealize.ShloMosaic.Lib.Pipeline.Value
import Idealize.ShloMosaic.PureOps.Ideal.Laws

noncomputable section

namespace Cert.KernelIdeal.ChanValue

open Idealize.ShloMosaic Idealize.ShloMosaic.ValueIdx Cert.KernelIdeal Cert.KernelIdeal.Gen

/-! ## The scores: query rows against key rows, summed over the feature axis -/

theorem lhs_scores_0 (i : S16x256x256.Idx) (q : dot_S16x256x128_S16x256x128_S16x256x256_2_2_1_1_0_0.contr.Idx) :
    (dot_S16x256x128_S16x256x128_S16x256x256_2_2_1_1_0_0.lhsIdx i q 0).val = (i 0).val := by
  unfold DotDims.lhsIdx
  rw [dif_pos (show (0 : Fin S16x256x128.rank) ∈ dot_S16x256x128_S16x256x128_S16x256x256_2_2_1_1_0_0.lhsBatch by decide)]
  rfl
theorem lhs_scores_1 (i : S16x256x256.Idx) (q : dot_S16x256x128_S16x256x128_S16x256x256_2_2_1_1_0_0.contr.Idx) :
    (dot_S16x256x128_S16x256x128_S16x256x256_2_2_1_1_0_0.lhsIdx i q 1).val = (i 1).val := by
  unfold DotDims.lhsIdx
  rw [dif_neg (show ¬(1 : Fin S16x256x128.rank) ∈ dot_S16x256x128_S16x256x128_S16x256x256_2_2_1_1_0_0.lhsBatch by decide), dif_pos (show (1 : Fin S16x256x128.rank) ∈ dot_S16x256x128_S16x256x128_S16x256x256_2_2_1_1_0_0.lhsNonContracting by decide)]
  rfl
theorem lhs_scores_2 (i : S16x256x256.Idx) (q : dot_S16x256x128_S16x256x128_S16x256x256_2_2_1_1_0_0.contr.Idx) :
    (dot_S16x256x128_S16x256x128_S16x256x256_2_2_1_1_0_0.lhsIdx i q 2).val = (q ⟨0, by decide⟩).val :=
  dot_S16x256x128_S16x256x128_S16x256x256_2_2_1_1_0_0.lhsIdx_val_of_single rfl i q
theorem rhs_scores_0 (i : S16x256x256.Idx) (q : dot_S16x256x128_S16x256x128_S16x256x256_2_2_1_1_0_0.contr.Idx) :
    (dot_S16x256x128_S16x256x128_S16x256x256_2_2_1_1_0_0.rhsIdx i q 0).val = (i 0).val := by
  unfold DotDims.rhsIdx
  rw [dif_pos (show (0 : Fin S16x256x128.rank) ∈ dot_S16x256x128_S16x256x128_S16x256x256_2_2_1_1_0_0.rhsBatch by decide)]
  rfl
theorem rhs_scores_1 (i : S16x256x256.Idx) (q : dot_S16x256x128_S16x256x128_S16x256x256_2_2_1_1_0_0.contr.Idx) :
    (dot_S16x256x128_S16x256x128_S16x256x256_2_2_1_1_0_0.rhsIdx i q 1).val = (i 2).val := by
  unfold DotDims.rhsIdx
  rw [dif_neg (show ¬(1 : Fin S16x256x128.rank) ∈ dot_S16x256x128_S16x256x128_S16x256x256_2_2_1_1_0_0.rhsBatch by decide), dif_pos (show (1 : Fin S16x256x128.rank) ∈ dot_S16x256x128_S16x256x128_S16x256x256_2_2_1_1_0_0.rhsNonContracting by decide)]
  rfl
theorem rhs_scores_2 (i : S16x256x256.Idx) (q : dot_S16x256x128_S16x256x128_S16x256x256_2_2_1_1_0_0.contr.Idx) :
    (dot_S16x256x128_S16x256x128_S16x256x256_2_2_1_1_0_0.rhsIdx i q 2).val = (q ⟨0, by decide⟩).val :=
  dot_S16x256x128_S16x256x128_S16x256x256_2_2_1_1_0_0.rhsIdx_val_of_single rfl i q

/-- Entry (b, r, j) of the first product is the inner product of query row r and key row j of slice b. -/
theorem scores_apply (y z : FVec Ideal S16x256x128 .bf16) (b : Fin 16) (r j : Fin 256) :
    matmul dot_S16x256x128_S16x256x128_S16x256x256_2_2_1_1_0_0 none y z (constant S16x256x256 .f32 0x00000000#32) (ix3 b r j)
      = ∑ d : Fin 128, y (ix3 b r d) * z (ix3 b j d) := by
  refine (Ideal.matmul_constant_zero_apply dot_S16x256x128_S16x256x128_S16x256x256_2_2_1_1_0_0 none y z (ix3 b r j)).trans ?_
  rw [← Equiv.sum_comp (ValueIdx.contrEquiv1 dot_S16x256x128_S16x256x128_S16x256x256_2_2_1_1_0_0 128 rfl rfl).symm]
  refine Finset.sum_congr rfl fun d _ => ?_
  have hd := ValueIdx.contrEquiv1_symm_val dot_S16x256x128_S16x256x128_S16x256x256_2_2_1_1_0_0 128 rfl rfl d
  have el : dot_S16x256x128_S16x256x128_S16x256x256_2_2_1_1_0_0.lhsIdx (ix3 b r j) ((ValueIdx.contrEquiv1 dot_S16x256x128_S16x256x128_S16x256x256_2_2_1_1_0_0 128 rfl rfl).symm d) = ix3 b r d := funext fun a => Fin.ext (by
    match a with
    | ⟨0, _⟩ => exact lhs_scores_0 _ _
    | ⟨1, _⟩ => exact lhs_scores_1 _ _
    | ⟨2, _⟩ => exact (lhs_scores_2 _ _).trans hd)
  have er : dot_S16x256x128_S16x256x128_S16x256x256_2_2_1_1_0_0.rhsIdx (ix3 b r j) ((ValueIdx.contrEquiv1 dot_S16x256x128_S16x256x128_S16x256x256_2_2_1_1_0_0 128 rfl rfl).symm d) = ix3 b j d := funext fun a => Fin.ext (by
    match a with
    | ⟨0, _⟩ => exact rhs_scores_0 _ _
    | ⟨1, _⟩ => exact rhs_scores_1 _ _
    | ⟨2, _⟩ => exact (rhs_scores_2 _ _).trans hd)
  rw [el, er]

/-! ## The softmax of a score array, as the body spells it -/

/-- A row's maximum as the body takes it: the lane maximum started from -∞, then `max` with -∞ once more. -/
abbrev rowMaxK (s : FVec Ideal S16x256x256 .f32) : FVec Ideal S16x256 .f32 :=
  maximumf (broadcast S16x256 (Scalar.ofBits (F := Ideal) .f32 0xFF800000#32))
    (multiReduction .maximumf [2] S16x256 s 0xFF800000#32 reduces_S16x256x256_S16x256 (.inl rfl) rfl)

/-- A per-row value spread back along the key axis: [16,256] → [16,256,1] → [16,256,256]. -/
abbrev spread (v : FVec Ideal S16x256 .f32) : FVec Ideal S16x256x256 .f32 :=
  broadcastTo S16x256x256 (shapeCast S16x256x1 v shapeCasts_S16x256_S16x256x1) broadcasts_S16x256x1_S16x256x256

/-- The exponentials of the scores shifted by their row's maximum. -/
abbrev expK (s : FVec Ideal S16x256x256 .f32) : FVec Ideal S16x256x256 .f32 :=
  exp (subf s (spread (rowMaxK s)))

/-- The softmax weights: each exponential over its row's sum. -/
abbrev softmaxK (s : FVec Ideal S16x256x256 .f32) : FVec Ideal S16x256x256 .f32 :=
  divf (expK s) (spread (multiReduction .add [2] S16x256 (expK s) 0x00000000#32 reduces_S16x256x256_S16x256 (.inl rfl) rfl))

/-- The spread value at (b, r, j) is the per-row value at (b, r). -/
theorem spread_apply (v : FVec Ideal S16x256 .f32) (b : Fin 16) (r j : Fin 256) :
    spread v (ix3 b r j) = v (ix2 b r) := by
  refine (broadcastTo_apply _ broadcasts_S16x256x1_S16x256x256 (ix3 b r j) (ix3 b r (0 : Fin 1)) (fun a => match a with
    | ⟨0, _⟩ => by show b.val = if (16 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else j.val; rw [if_pos rfl])).trans ?_
  exact shapeCast_apply v shapeCasts_S16x256_S16x256x1 (ix3 b r (0 : Fin 1)) (ix2 b r) (by
    rw [Shape.rowMajor_val_two, Shape.rowMajor_val_three]
    show b.val * 256 + r.val = (b.val * 256 + r.val) * 1 + 0
    omega)

/-- The index the lane reduction inserts coordinate j into, at (b, r), is (b, r, j). -/
theorem lift_ix (b : Fin 16) (r j : Fin 256) :
    reduces_S16x256x256_S16x256.lift (ix2 b r) j = ix3 b r j :=
  funext fun a => Fin.ext (by match a with | ⟨0, _⟩ => rfl | ⟨1, _⟩ => rfl | ⟨2, _⟩ => rfl)

/-- The lane maximum of a score array at (b, r): the fold of `max` from -∞ over row r of slice b. -/
theorem laneMax_apply (s : FVec Ideal S16x256x256 .f32) (b : Fin 16) (r : Fin 256) :
    multiReduction .maximumf [2] S16x256 s 0xFF800000#32 reduces_S16x256x256_S16x256 (.inl rfl) rfl (ix2 b r)
      = (Finset.univ : Finset (Fin 256)).fold max Cert.Attn.negInf (fun j => s (ix3 b r j)) := by
  refine (Ideal.multiReduction_maximumf_single s 0xFF800000#32 reduces_S16x256x256_S16x256 (.inl rfl) rfl (ix2 b r)).trans ?_
  rw [Ideal.ofBits_def]
  exact congrArg (Finset.univ.fold max Cert.Attn.negInf) (funext fun j => congrArg s (lift_ix b r j))

/-- The body's row maximum at (b, r) is the row maximum of row r of slice b. -/
theorem rowMaxK_apply (s : FVec Ideal S16x256x256 .f32) (b : Fin 16) (r : Fin 256) :
    rowMaxK s (ix2 b r) = Cert.Attn.rowMax (fun j => s (ix3 b r j)) := by
  unfold Cert.Attn.rowMax
  refine (maximumf_apply _ _ _).trans ?_
  rw [broadcast_apply, Ideal.ofBits_def, laneMax_apply]

/-- The shifted exponential at (b, r, j). -/
theorem expK_apply (s : FVec Ideal S16x256x256 .f32) (b : Fin 16) (r j : Fin 256) :
    expK s (ix3 b r j) = Ideal.exp (s (ix3 b r j) - Cert.Attn.rowMax (fun j' => s (ix3 b r j'))) := by
  show FloatOps.exp (subf s (spread (rowMaxK s)) (ix3 b r j)) = _
  rw [Ideal.exp_def, subf_apply, spread_apply, rowMaxK_apply]

/-- The lane sum of an array at (b, r): the sum over row r of slice b. -/
theorem rowSum_apply (w : FVec Ideal S16x256x256 .f32) (b : Fin 16) (r : Fin 256) :
    multiReduction .add [2] S16x256 w 0x00000000#32 reduces_S16x256x256_S16x256 (.inl rfl) rfl (ix2 b r)
      = ∑ j : Fin 256, w (ix3 b r j) := by
  refine (Ideal.multiReduction_add_single w 0x00000000#32 reduces_S16x256x256_S16x256 (.inl rfl) rfl (ix2 b r)).trans ?_
  exact Finset.sum_congr rfl fun j _ => congrArg w (lift_ix b r j)

/-- The body's softmax weight at (b, r, j) is the softmax weight of position j in row r of slice b. -/
theorem softmaxK_apply (s : FVec Ideal S16x256x256 .f32) (b : Fin 16) (r j : Fin 256) :
    softmaxK s (ix3 b r j) = Cert.Attn.softmaxRow (fun j' => s (ix3 b r j')) j := by
  unfold Cert.Attn.softmaxRow
  refine (divf_apply _ _ _).trans ?_
  exact congrArg₂ Ideal.div (expK_apply s b r j)
    (((spread_apply _ b r j).trans (rowSum_apply (expK s) b r)).trans
      (Finset.sum_congr rfl fun j' _ => expK_apply s b r j'))

/-! ## The scaled scores -/

/-- Entry (b, r, j) of the scaled first product is the scaled inner product of query row r and key row j of slice b. -/
theorem scaled_scores_apply (y z : FVec Ideal S16x256x128 .bf16) (b : Fin 16) (r j : Fin 256) :
    mulf (matmul dot_S16x256x128_S16x256x128_S16x256x256_2_2_1_1_0_0 none y z (constant S16x256x256 .f32 0x00000000#32))
        (broadcast S16x256x256 (Scalar.ofBits (F := Ideal) .f32 0x3DB504F3#32)) (ix3 b r j)
      = Cert.Attn.score Cert.Attn.scaleChan (fun d => y (ix3 b r d)) (fun d => z (ix3 b j d)) := by
  unfold Cert.Attn.score
  rw [mulf_apply, broadcast_apply, Ideal.ofBits_def, scores_apply]

/-! ## The output: the weights against the values, summed over the key axis -/

theorem lhs_out_0 (i : S16x256x128.Idx) (q : dot_S16x256x256_S16x256x128_S16x256x128_2_1_1_2_0_0.contr.Idx) :
    (dot_S16x256x256_S16x256x128_S16x256x128_2_1_1_2_0_0.lhsIdx i q 0).val = (i 0).val := by
  unfold DotDims.lhsIdx
  rw [dif_pos (show (0 : Fin S16x256x256.rank) ∈ dot_S16x256x256_S16x256x128_S16x256x128_2_1_1_2_0_0.lhsBatch by decide)]
  rfl
theorem lhs_out_1 (i : S16x256x128.Idx) (q : dot_S16x256x256_S16x256x128_S16x256x128_2_1_1_2_0_0.contr.Idx) :
    (dot_S16x256x256_S16x256x128_S16x256x128_2_1_1_2_0_0.lhsIdx i q 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem lhs_out_2 (i : S16x256x128.Idx) (q : dot_S16x256x256_S16x256x128_S16x256x128_2_1_1_2_0_0.contr.Idx) :
    (dot_S16x256x256_S16x256x128_S16x256x128_2_1_1_2_0_0.lhsIdx i q 2).val = (q ⟨0, by decide⟩).val :=
  dot_S16x256x256_S16x256x128_S16x256x128_2_1_1_2_0_0.lhsIdx_val_of_single rfl i q
theorem rhs_out_0 (i : S16x256x128.Idx) (q : dot_S16x256x256_S16x256x128_S16x256x128_2_1_1_2_0_0.contr.Idx) :
    (dot_S16x256x256_S16x256x128_S16x256x128_2_1_1_2_0_0.rhsIdx i q 0).val = (i 0).val := by
  unfold DotDims.rhsIdx
  rw [dif_pos (show (0 : Fin S16x256x128.rank) ∈ dot_S16x256x256_S16x256x128_S16x256x128_2_1_1_2_0_0.rhsBatch by decide)]
  rfl
theorem rhs_out_1 (i : S16x256x128.Idx) (q : dot_S16x256x256_S16x256x128_S16x256x128_2_1_1_2_0_0.contr.Idx) :
    (dot_S16x256x256_S16x256x128_S16x256x128_2_1_1_2_0_0.rhsIdx i q 1).val = (q ⟨0, by decide⟩).val :=
  dot_S16x256x256_S16x256x128_S16x256x128_2_1_1_2_0_0.rhsIdx_val_of_single rfl i q
theorem rhs_out_2 (i : S16x256x128.Idx) (q : dot_S16x256x256_S16x256x128_S16x256x128_2_1_1_2_0_0.contr.Idx) :
    (dot_S16x256x256_S16x256x128_S16x256x128_2_1_1_2_0_0.rhsIdx i q 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl

/-- Entry (b, r, e) of the second product is the sum over j of weight (b, r, j) times entry (b, j, e) of the values. -/
theorem out_apply (w : FVec Ideal S16x256x256 .bf16) (y : FVec Ideal S16x256x128 .bf16) (b : Fin 16) (r : Fin 256) (e : Fin 128) :
    matmul dot_S16x256x256_S16x256x128_S16x256x128_2_1_1_2_0_0 none w y (constant S16x256x128 .f32 0x00000000#32) (ix3 b r e)
      = ∑ j : Fin 256, w (ix3 b r j) * y (ix3 b j e) := by
  refine (Ideal.matmul_constant_zero_apply dot_S16x256x256_S16x256x128_S16x256x128_2_1_1_2_0_0 none w y (ix3 b r e)).trans ?_
  rw [← Equiv.sum_comp (ValueIdx.contrEquiv1 dot_S16x256x256_S16x256x128_S16x256x128_2_1_1_2_0_0 256 rfl rfl).symm]
  refine Finset.sum_congr rfl fun j _ => ?_
  have hj := ValueIdx.contrEquiv1_symm_val dot_S16x256x256_S16x256x128_S16x256x128_2_1_1_2_0_0 256 rfl rfl j
  have el : dot_S16x256x256_S16x256x128_S16x256x128_2_1_1_2_0_0.lhsIdx (ix3 b r e) ((ValueIdx.contrEquiv1 dot_S16x256x256_S16x256x128_S16x256x128_2_1_1_2_0_0 256 rfl rfl).symm j) = ix3 b r j := funext fun a => Fin.ext (by
    match a with
    | ⟨0, _⟩ => exact lhs_out_0 _ _
    | ⟨1, _⟩ => exact lhs_out_1 _ _
    | ⟨2, _⟩ => exact (lhs_out_2 _ _).trans hj)
  have er : dot_S16x256x256_S16x256x128_S16x256x128_2_1_1_2_0_0.rhsIdx (ix3 b r e) ((ValueIdx.contrEquiv1 dot_S16x256x256_S16x256x128_S16x256x128_2_1_1_2_0_0 256 rfl rfl).symm j) = ix3 b j e := funext fun a => Fin.ext (by
    match a with
    | ⟨0, _⟩ => exact rhs_out_0 _ _
    | ⟨1, _⟩ => exact (rhs_out_1 _ _).trans hj
    | ⟨2, _⟩ => exact rhs_out_2 _ _)
  rw [el, er]

/-! ## The body's value -/

/-- The body's stored value, with its shape casts to the same shape dropped: the weights of the scaled scores of
    queries against keys, against the values. -/
theorem pay_unfold (q k v : FVec Ideal S16x256x128 .f32) :
    k1_pay1 (F := Ideal) q k v
      = matmul dot_S16x256x256_S16x256x128_S16x256x128_2_1_1_2_0_0 none
          (truncf .bf16 (softmaxK (mulf (matmul dot_S16x256x128_S16x256x128_S16x256x256_2_2_1_1_0_0 none (truncf .bf16 q bitsLt_bf16_f32) (truncf .bf16 k bitsLt_bf16_f32) (constant S16x256x256 .f32 0x00000000#32))
              (broadcast S16x256x256 (Scalar.ofBits (F := Ideal) .f32 0x3DB504F3#32)))) bitsLt_bf16_f32)
          (truncf .bf16 v bitsLt_bf16_f32) (constant S16x256x128 .f32 0x00000000#32) := by
  unfold k1_pay1
  simp only [shapeCast_self]

/-- The stored value of the channel kernel is attention of the three loaded blocks. -/
theorem pay_eq (q k v : FVec Ideal S16x256x128 .f32) :
    k1_pay1 (F := Ideal) q k v = Cert.Attn.attn3 Cert.Attn.scaleChan q k v := by
  funext i
  obtain ⟨b, r, e, rfl⟩ : ∃ (b : Fin 16) (r : Fin 256) (e : Fin 128), i = ix3 b r e := ⟨i 0, i 1, i 2, eq_ix3 i⟩
  rw [Cert.Attn.attn3_ix3, pay_unfold]
  unfold Cert.Attn.attn3c Cert.Attn.attnRow
  refine (out_apply _ _ b r e).trans ?_
  refine Finset.sum_congr rfl fun j _ => ?_
  refine congrArg (· * v (ix3 b j e)) ?_
  refine (softmaxK_apply _ b r j).trans ?_
  refine congrArg (fun s => Cert.Attn.softmaxRow s j) ?_
  funext j'
  exact scaled_scores_apply _ _ b r j'

end Cert.KernelIdeal.ChanValue

end
-- ==== Proof.ChanArray.lean ====
/-
  The channel-attention region: from blocks to the whole array.
  Point t of the grid loads batch slices 16 t … 16 t + 15 of the three input arrays and writes the same slices of the
  output array; an attention entry depends only on its own batch slice, so the output array, once every point has
  written back, is attention of the three whole input arrays.
-/
import proofs.«136589_j42305427866177_1_alg».proof.Proof.Gen.KernelIdeal.Frame
import proofs.«136589_j42305427866177_1_alg».proof.Proof.AttnSpec
import proofs.«136589_j42305427866177_1_alg».proof.Proof.ChanPay
import Idealize.ShloMosaic.Lib.ValueIdx
import Idealize.ShloMosaic.Lib.Pipeline.Value

noncomputable section

namespace Cert.KernelIdeal.ChanValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The body's loads and its one store all start at the block's origin. -/
theorem origin : (![0, 0, 0] : Fin 3 → Nat) = fun _ => 0 := funext fun a => by fin_cases a <;> rfl

/-- The four index maps over the grid: at point `t` each input's block and the output's block sit at block `t` of
    the batch axis and at block 0 of the row and feature axes. -/
theorem index_at : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Entry (b, r, d) of the query's block at point `t` sits at entry (16 t + b, r, d) of its array. -/
theorem emb_q (t : Fin cfg1.N) (b : Fin 16) (r : Fin 256) (d : Fin 128) (b' : Fin 512)
    (hb : b'.val = 16 * t.val + b.val) :
    ((cfg1.win 0).blk t).view.emb (ix3 b r d) = ix3 b' r d := by
  have e0 : win1_0.index t (0 : Fin 3) = t.val := (index_at t).1
  have e1 : win1_0.index t (1 : Fin 3) = 0 := (index_at t).2.1
  have e2 : win1_0.index t (2 : Fin 3) = 0 := (index_at t).2.2.1
  funext a; apply Fin.ext
  match a with
  | ⟨0, _⟩ => show win1_0.index t (0 : Fin 3) * 16 + 1 * b.val = b'.val; omega
  | ⟨1, _⟩ => show win1_0.index t (1 : Fin 3) * 256 + 1 * r.val = r.val; omega
  | ⟨2, _⟩ => show win1_0.index t (2 : Fin 3) * 128 + 1 * d.val = d.val; omega

/-- Entry (b, r, d) of the key's block at point `t` sits at entry (16 t + b, r, d) of its array. -/
theorem emb_k (t : Fin cfg1.N) (b : Fin 16) (r : Fin 256) (d : Fin 128) (b' : Fin 512)
    (hb : b'.val = 16 * t.val + b.val) :
    ((cfg1.win 1).blk t).view.emb (ix3 b r d) = ix3 b' r d := by
  have e0 : win1_1.index t (0 : Fin 3) = t.val := (index_at t).2.2.2.1
  have e1 : win1_1.index t (1 : Fin 3) = 0 := (index_at t).2.2.2.2.1
  have e2 : win1_1.index t (2 : Fin 3) = 0 := (index_at t).2.2.2.2.2.1
  funext a; apply Fin.ext
  match a with
  | ⟨0, _⟩ => show win1_1.index t (0 : Fin 3) * 16 + 1 * b.val = b'.val; omega
  | ⟨1, _⟩ => show win1_1.index t (1 : Fin 3) * 256 + 1 * r.val = r.val; omega
  | ⟨2, _⟩ => show win1_1.index t (2 : Fin 3) * 128 + 1 * d.val = d.val; omega

/-- Entry (b, r, d) of the value's block at point `t` sits at entry (16 t + b, r, d) of its array. -/
theorem emb_v (t : Fin cfg1.N) (b : Fin 16) (r : Fin 256) (d : Fin 128) (b' : Fin 512)
    (hb : b'.val = 16 * t.val + b.val) :
    ((cfg1.win 2).blk t).view.emb (ix3 b r d) = ix3 b' r d := by
  have e0 : win1_2.index t (0 : Fin 3) = t.val := (index_at t).2.2.2.2.2.2.1
  have e1 : win1_2.index t (1 : Fin 3) = 0 := (index_at t).2.2.2.2.2.2.2.1
  have e2 : win1_2.index t (2 : Fin 3) = 0 := (index_at t).2.2.2.2.2.2.2.2.1
  funext a; apply Fin.ext
  match a with
  | ⟨0, _⟩ => show win1_2.index t (0 : Fin 3) * 16 + 1 * b.val = b'.val; omega
  | ⟨1, _⟩ => show win1_2.index t (1 : Fin 3) * 256 + 1 * r.val = r.val; omega
  | ⟨2, _⟩ => show win1_2.index t (2 : Fin 3) * 128 + 1 * d.val = d.val; omega

/-- Entry (b, r, d) of the output's block at point `t` sits at entry (16 t + b, r, d) of its array. -/
theorem emb_out (t : Fin cfg1.N) (b : Fin 16) (r : Fin 256) (d : Fin 128) (b' : Fin 512)
    (hb : b'.val = 16 * t.val + b.val) :
    ((cfg1.win 3).blk t).view.emb (ix3 b r d) = ix3 b' r d := by
  have e0 : win1_3.index t (0 : Fin 3) = t.val := (index_at t).2.2.2.2.2.2.2.2.2.1
  have e1 : win1_3.index t (1 : Fin 3) = 0 := (index_at t).2.2.2.2.2.2.2.2.2.2.1
  have e2 : win1_3.index t (2 : Fin 3) = 0 := (index_at t).2.2.2.2.2.2.2.2.2.2.2
  funext a; apply Fin.ext
  match a with
  | ⟨0, _⟩ => show win1_3.index t (0 : Fin 3) * 16 + 1 * b.val = b'.val; omega
  | ⟨1, _⟩ => show win1_3.index t (1 : Fin 3) * 256 + 1 * r.val = r.val; omega
  | ⟨2, _⟩ => show win1_3.index t (2 : Fin 3) * 128 + 1 * d.val = d.val; omega

/-- The query block at point `t` is batch slices 16 t … 16 t + 15 of the query array. -/
theorem q_block (c : Dev nD) (t : Fin cfg1.N) (b : Fin 16) (r : Fin 256) (d : Fin 128) (b' : Fin 512)
    (hb : b'.val = 16 * t.val + b.val) :
    iblk1 V c 0 t (ix3 b r d) = V c main_v10 (ix3 b' r d) := by
  unfold iblk1
  rw [View.read_apply]
  show V c main_v10 (((cfg1.win 0).blk t).view.emb (ix3 b r d)) = _
  rw [emb_q t b r d b' hb]

/-- The key block at point `t` is batch slices 16 t … 16 t + 15 of the key array. -/
theorem k_block (c : Dev nD) (t : Fin cfg1.N) (b : Fin 16) (r : Fin 256) (d : Fin 128) (b' : Fin 512)
    (hb : b'.val = 16 * t.val + b.val) :
    iblk1 V c 1 t (ix3 b r d) = V c main_v12 (ix3 b' r d) := by
  unfold iblk1
  rw [View.read_apply]
  show V c main_v12 (((cfg1.win 1).blk t).view.emb (ix3 b r d)) = _
  rw [emb_k t b r d b' hb]

/-- The value block at point `t` is batch slices 16 t … 16 t + 15 of the value array. -/
theorem v_block (c : Dev nD) (t : Fin cfg1.N) (b : Fin 16) (r : Fin 256) (d : Fin 128) (b' : Fin 512)
    (hb : b'.val = 16 * t.val + b.val) :
    iblk1 V c 2 t (ix3 b r d) = V c main_v14 (ix3 b' r d) := by
  unfold iblk1
  rw [View.read_apply]
  show V c main_v14 (((cfg1.win 2).blk t).view.emb (ix3 b r d)) = _
  rw [emb_v t b r d b' hb]

/-- What point `t` writes back is block `t` of attention of the three whole input arrays: attention of the blocks is
    attention of the arrays there, an entry depending only on its own batch slice. -/
theorem flushed_eq (c : Dev nD) (t : Fin cfg1.N) :
    (dat1 (F := Ideal) V c).flushed 3 t
      = ((cfg1.win 3).blk t).view.read (Elt Ideal)
          (Cert.Attn.attn3 Cert.Attn.scaleChan (V c main_v10) (V c main_v12) (V c main_v14)) := by
  show (cfg1.win 3).cut (grid1.coords t) ((dat1 V c).after 3 t) = _
  rw [after1_3]
  unfold out1_3
  rw [View.canon_unit_zero origin]
  simp only [View.ld_unit_zero (S := S16x256x128) origin]
  rw [pay_eq]
  funext j
  obtain ⟨b, r, e, rfl⟩ : ∃ (b : Fin 16) (r : Fin 256) (e : Fin 128), j = ix3 b r e := ⟨j 0, j 1, j 2, eq_ix3 j⟩
  have ht : t.val < 32 := lt_of_lt_of_eq t.isLt N_1
  have hlt : 16 * t.val + b.val < 512 := by have := b.isLt; omega
  show Cert.Attn.attn3 Cert.Attn.scaleChan (iblk1 V c 0 t) (iblk1 V c 1 t) (iblk1 V c 2 t) (ix3 b r e)
     = Cert.Attn.attn3 Cert.Attn.scaleChan (V c main_v10) (V c main_v12) (V c main_v14)
         (((cfg1.win 3).blk t).view.emb (ix3 b r e))
  rw [emb_out t b r e ⟨16 * t.val + b.val, hlt⟩ rfl]
  show Cert.Attn.attn3c Cert.Attn.scaleChan (iblk1 V c 0 t) (iblk1 V c 1 t) (iblk1 V c 2 t) b r e
     = Cert.Attn.attn3c Cert.Attn.scaleChan (V c main_v10) (V c main_v12) (V c main_v14) ⟨16 * t.val + b.val, hlt⟩ r e
  exact Cert.Attn.attn3c_congr (B := 16) (B' := 512) (L := 256) (D := 128) Cert.Attn.scaleChan
    (iblk1 V c 0 t) (iblk1 V c 1 t) (iblk1 V c 2 t) (V c main_v10) (V c main_v12) (V c main_v14)
    b ⟨16 * t.val + b.val, hlt⟩
    (fun r' d => q_block V c t b r' d _ rfl) (fun r' d => k_block V c t b r' d _ rfl)
    (fun r' d => v_block V c t b r' d _ rfl) r e

/-- An entry of the output array is in point `t`'s block iff each coordinate is in the block's range on its axis. -/
theorem mem_blk (t : Fin cfg1.N) (i : S512x256x128.Idx) :
    i ∈ ((cfg1.win 3).blk t).view.set ↔ ∀ a : Fin 3, win1_3.index t a * S16x256x128.size a ≤ (i a).val
      ∧ (i a).val < win1_3.index t a * S16x256x128.size a + S16x256x128.size a := by
  show i ∈ ((View.whole main_v15).slice (win1_3.rect t)).set ↔ _
  rw [View.set_slice_whole, Rect.mem_set_unit]
  exact Iff.rfl

/-- Every entry of the output array is written back by some point: batch slice `b` by point `b / 16`. -/
theorem cover (i : S512x256x128.Idx) :
    ∃ t : Fin cfg1.N, (cfg1.win 3).flush t = true ∧ i ∈ ((cfg1.win 3).blk t).view.set := by
  have h0 : (i 0).val < 512 := (i 0).isLt
  have h1 : (i 1).val < 256 := (i 1).isLt
  have h2 : (i 2).val < 128 := (i 2).isLt
  have hq : (i 0).val / 16 < cfg1.N := by
    show (i 0).val / 16 < grid1.N
    rw [N_1]; omega
  refine ⟨⟨(i 0).val / 16, hq⟩, flush1_3 _, ?_⟩
  rw [mem_blk]
  have e0 : win1_3.index ⟨(i 0).val / 16, hq⟩ (0 : Fin 3) = (i 0).val / 16 := (index_at ⟨(i 0).val / 16, hq⟩).2.2.2.2.2.2.2.2.2.1
  have e1 : win1_3.index ⟨(i 0).val / 16, hq⟩ (1 : Fin 3) = 0 := (index_at ⟨(i 0).val / 16, hq⟩).2.2.2.2.2.2.2.2.2.2.1
  have e2 : win1_3.index ⟨(i 0).val / 16, hq⟩ (2 : Fin 3) = 0 := (index_at ⟨(i 0).val / 16, hq⟩).2.2.2.2.2.2.2.2.2.2.2
  intro a
  match a with
  | ⟨0, _⟩ =>
    show win1_3.index ⟨(i 0).val / 16, hq⟩ (0 : Fin 3) * 16 ≤ (i 0).val
      ∧ (i 0).val < win1_3.index ⟨(i 0).val / 16, hq⟩ (0 : Fin 3) * 16 + 16
    omega
  | ⟨1, _⟩ =>
    show win1_3.index ⟨(i 0).val / 16, hq⟩ (1 : Fin 3) * 256 ≤ (i 1).val
      ∧ (i 1).val < win1_3.index ⟨(i 0).val / 16, hq⟩ (1 : Fin 3) * 256 + 256
    omega
  | ⟨2, _⟩ =>
    show win1_3.index ⟨(i 0).val / 16, hq⟩ (2 : Fin 3) * 128 ≤ (i 2).val
      ∧ (i 2).val < win1_3.index ⟨(i 0).val / 16, hq⟩ (2 : Fin 3) * 128 + 128
    omega

/-- After the region the output array holds attention of the three input arrays (as the region found them). -/
theorem final (c : Dev nD) :
    (dat1 (F := Ideal) V c).arrAt 3 cfg1.N
      = Cert.Attn.attn3 Cert.Attn.scaleChan (V c main_v10) (V c main_v12) (V c main_v14) :=
  (dat1 V c).arrAt_eq_of_cover 3 _ (fun t _ => flushed_eq V c t) cover

end Cert.KernelIdeal.ChanValue

end
-- ==== Proof.WinRef.lean ====
/-
  The reference's window attention, read at an index.
  From the re-laid input (batch axes 1024 × 8 kept apart) the reference takes scores by a batched product, scales them,
  takes the row softmax and multiplies by the same array: entry (n, h, r, e) is attention of slice (n, h) with itself.
-/
import proofs.«136589_j42305427866177_1_alg».proof.Proof.Gen.ReferenceIdeal.Read
import proofs.«136589_j42305427866177_1_alg».proof.Proof.AttnSpec
import Idealize.ShloMosaic.Lib.ValueIdx
import Idealize.ShloMosaic.Lib.Pipeline.Value
import Idealize.ShloMosaic.PureOps.Ideal.Laws

noncomputable section

namespace Cert.ReferenceIdeal.WinValue

open Idealize.ShloMosaic Idealize.ShloMosaic.ValueIdx Cert.ReferenceIdeal Cert.ReferenceIdeal.Gen Cert.ReferenceIdeal.Read

/-- The scores' last axis is the one the row reductions drop. -/
theorem reduces_scores : S1024x8x64x64.Reduces [3] S1024x8x64 := by decide

/-- Row (n, h, r) with the column k put back on the dropped axis is entry (n, h, r, k). -/
theorem lift_scores (n : Fin 1024) (h : Fin 8) (r k : Fin 64) :
    reduces_scores.lift (ix3 n h r) k = ix4 n h r k :=
  funext fun a => Fin.ext (by match a with | ⟨0, _⟩ => rfl | ⟨1, _⟩ => rfl | ⟨2, _⟩ => rfl | ⟨3, _⟩ => rfl)

/-- A scaled score: the product of query row r and key row k over the 32 features, times the scale. -/
theorem v5_ix (x0 : (⟨S4x256x128x128, .f32⟩ : BufTy).Contents (Elt Ideal)) (n : Fin 1024) (h : Fin 8) (r k : Fin 64) :
    val_main_v5 (F := Ideal) x0 (ix4 n h r k)
      = Cert.Attn.score Cert.Attn.scaleWin (fun d => val_main_v2 (F := Ideal) x0 (ix4 n h r d))
          (fun d => val_main_v2 (F := Ideal) x0 (ix4 n h k d)) := by
  rw [val_main_v5_apply, val_main_v3_apply, val_main_v4_apply, val_main_cst_apply]
  generalize val_main_v2 (F := Ideal) x0 = y
  unfold Cert.Attn.score
  simp only [Ideal.mulf_def, Ideal.ofBits_def]
  refine congrArg (· * _) (Finset.sum_congr rfl fun d _ => ?_)
  have el : lidx_main_v3 (ix4 n h r k) d = ix4 n h r d :=
    funext fun a => Fin.ext (by match a with | ⟨0, _⟩ => rfl | ⟨1, _⟩ => rfl | ⟨2, _⟩ => rfl | ⟨3, _⟩ => rfl)
  have er : ridx_main_v3 (ix4 n h r k) d = ix4 n h k d :=
    funext fun a => Fin.ext (by match a with | ⟨0, _⟩ => rfl | ⟨1, _⟩ => rfl | ⟨2, _⟩ => rfl | ⟨3, _⟩ => rfl)
  rw [el, er]

/-- The row's running maximum from -∞ over the 64 columns. -/
theorem v6_ix (x0 : (⟨S4x256x128x128, .f32⟩ : BufTy).Contents (Elt Ideal)) (n : Fin 1024) (h : Fin 8) (r : Fin 64) :
    val_main_v6 (F := Ideal) x0 (ix3 n h r)
      = Finset.univ.fold max Cert.Attn.negInf (fun k : Fin 64 => val_main_v5 (F := Ideal) x0 (ix4 n h r k)) := by
  unfold val_main_v6
  generalize val_main_v5 (F := Ideal) x0 = y
  have e := Host.reduce_eq_fold_single (s := S1024x8x64x64) (t := S1024x8x64) (a := 3) (u := S_) (α := Ideal .f32)
    (FloatOps.maximumf (F := Ideal) (φ := .f32)) y (val_main_cst_0 (F := Ideal)) reducesTo_S1024x8x64x64_S1024x8x64_d3 reduces_scores h_S_ (ix3 n h r)
  refine e.trans ?_
  exact congrArg (fun f => Finset.fold max Cert.Attn.negInf f (Finset.univ : Finset (Fin 64)))
    (funext fun k => congrArg y (lift_scores n h r k))

/-- The row's maximum as the reference takes it: the fold from -∞, then once more against -∞. -/
theorem v8_ix (x0 : (⟨S4x256x128x128, .f32⟩ : BufTy).Contents (Elt Ideal)) (n : Fin 1024) (h : Fin 8) (r : Fin 64) :
    val_main_v8 (F := Ideal) x0 (ix3 n h r)
      = Cert.Attn.rowMax (fun k : Fin 64 => val_main_v5 (F := Ideal) x0 (ix4 n h r k)) := by
  rw [val_main_v8_apply, val_main_v7_apply, val_main_cst_1_apply, v6_ix]
  rfl

/-- The exponential of a score less its row's maximum. -/
theorem v12_ix (x0 : (⟨S4x256x128x128, .f32⟩ : BufTy).Contents (Elt Ideal)) (n : Fin 1024) (h : Fin 8) (r k : Fin 64) :
    val_main_v12 (F := Ideal) x0 (ix4 n h r k)
      = Ideal.exp (val_main_v5 (F := Ideal) x0 (ix4 n h r k)
          - Cert.Attn.rowMax (fun k' : Fin 64 => val_main_v5 (F := Ideal) x0 (ix4 n h r k'))) := by
  rw [val_main_v12_apply, val_main_v11_apply, val_main_v10_apply, val_main_v9_apply]
  have ei : idx_main_v9 (idx_main_v10 (ix4 n h r k)) = ix3 n h r :=
    funext fun a => Fin.ext (by match a with | ⟨0, _⟩ => rfl | ⟨1, _⟩ => rfl | ⟨2, _⟩ => rfl)
  rw [ei, v8_ix]
  generalize val_main_v5 (F := Ideal) x0 = y
  simp only [Ideal.hostUnary_exp_def, Ideal.subf_def]

/-- The row's sum of exponentials. -/
theorem v13_ix (x0 : (⟨S4x256x128x128, .f32⟩ : BufTy).Contents (Elt Ideal)) (n : Fin 1024) (h : Fin 8) (r : Fin 64) :
    val_main_v13 (F := Ideal) x0 (ix3 n h r)
      = ∑ k : Fin 64, val_main_v12 (F := Ideal) x0 (ix4 n h r k) := by
  rw [val_main_v13_apply, val_main_cst_2_apply]
  generalize val_main_v12 (F := Ideal) x0 = y
  simp only [Ideal.ofBits_def, Ideal.ofBits_zero_f32, zero_add]
  refine Finset.sum_congr rfl fun k _ => congrArg y ?_
  exact funext fun a => Fin.ext (by match a with | ⟨0, _⟩ => rfl | ⟨1, _⟩ => rfl | ⟨2, _⟩ => rfl | ⟨3, _⟩ => rfl)

/-- A softmax weight: the exponential over the row's sum of exponentials. -/
theorem v16_ix (x0 : (⟨S4x256x128x128, .f32⟩ : BufTy).Contents (Elt Ideal)) (n : Fin 1024) (h : Fin 8) (r k : Fin 64) :
    val_main_v16 (F := Ideal) x0 (ix4 n h r k)
      = Cert.Attn.softmaxRow (fun k' : Fin 64 => val_main_v5 (F := Ideal) x0 (ix4 n h r k')) k := by
  rw [val_main_v16_apply, val_main_v15_apply, val_main_v14_apply]
  have ei : idx_main_v14 (idx_main_v15 (ix4 n h r k)) = ix3 n h r :=
    funext fun a => Fin.ext (by match a with | ⟨0, _⟩ => rfl | ⟨1, _⟩ => rfl | ⟨2, _⟩ => rfl)
  rw [ei, v13_ix]
  simp only [v12_ix]
  generalize val_main_v5 (F := Ideal) x0 = y
  unfold Cert.Attn.softmaxRow
  simp only [Ideal.hostDivf_def]

/-- The reference's window-attention stage is attention of the re-laid input with itself. -/
theorem ref_eq (x0 : (⟨S4x256x128x128, .f32⟩ : BufTy).Contents (Elt Ideal)) :
    val_main_v17 (F := Ideal) x0
      = Cert.Attn.attn4 Cert.Attn.scaleWin (val_main_v2 (F := Ideal) x0) (val_main_v2 (F := Ideal) x0) (val_main_v2 (F := Ideal) x0) := by
  funext i
  obtain ⟨n, h, r, e, rfl⟩ : ∃ (n : Fin 1024) (h : Fin 8) (r : Fin 64) (e : Fin 32), i = ix4 n h r e :=
    ⟨i 0, i 1, i 2, i 3, eq_ix4 i⟩
  rw [Cert.Attn.attn4_ix4, val_main_v17_apply]
  unfold Cert.Attn.attn4c Cert.Attn.attnRow
  refine Finset.sum_congr rfl fun k _ => ?_
  have el : lidx_main_v17 (ix4 n h r e) k = ix4 n h r k :=
    funext fun a => Fin.ext (by match a with | ⟨0, _⟩ => rfl | ⟨1, _⟩ => rfl | ⟨2, _⟩ => rfl | ⟨3, _⟩ => rfl)
  have er : ridx_main_v17 (ix4 n h r e) k = ix4 n h k e :=
    funext fun a => Fin.ext (by match a with | ⟨0, _⟩ => rfl | ⟨1, _⟩ => rfl | ⟨2, _⟩ => rfl | ⟨3, _⟩ => rfl)
  rw [el, er, v16_ix]
  have hs : (fun k' : Fin 64 => val_main_v5 (F := Ideal) x0 (ix4 n h r k'))
      = fun k' : Fin 64 => Cert.Attn.score Cert.Attn.scaleWin (fun d => val_main_v2 (F := Ideal) x0 (ix4 n h r d))
          (fun d => val_main_v2 (F := Ideal) x0 (ix4 n h k' d)) :=
    funext fun k' => v5_ix x0 n h r k'
  rw [hs]

end Cert.ReferenceIdeal.WinValue

end
-- ==== Proof.ChanRef.lean ====
/-
  The reference's channel attention, read at an index.
  From the three transposed inputs (batch axes 4 × 128 kept apart) the reference takes scores by a batched product,
  scales them, takes the row softmax and multiplies by the values: entry (n, h, r, e) is attention on slice (n, h).
-/
import proofs.«136589_j42305427866177_1_alg».proof.Proof.Gen.ReferenceIdeal.Read
import proofs.«136589_j42305427866177_1_alg».proof.Proof.AttnSpec
import Idealize.ShloMosaic.Lib.ValueIdx
import Idealize.ShloMosaic.Lib.Pipeline.Value
import Idealize.ShloMosaic.PureOps.Ideal.Laws

noncomputable section

namespace Cert.ReferenceIdeal.ChanValue

open Idealize.ShloMosaic Idealize.ShloMosaic.ValueIdx Cert.ReferenceIdeal Cert.ReferenceIdeal.Gen Cert.ReferenceIdeal.Read

/-- The scores' last axis is the one the row reductions drop. -/
theorem reduces_scores : S4x128x256x256.Reduces [3] S4x128x256 := by decide

/-- Row (n, h, r) with the column k put back on the dropped axis is entry (n, h, r, k). -/
theorem lift_scores (n : Fin 4) (h : Fin 128) (r k : Fin 256) :
    reduces_scores.lift (ix3 n h r) k = ix4 n h r k :=
  funext fun a => Fin.ext (by match a with | ⟨0, _⟩ => rfl | ⟨1, _⟩ => rfl | ⟨2, _⟩ => rfl | ⟨3, _⟩ => rfl)

/-- A scaled score: the product of query row r and key row k over the 128 features, times the scale. -/
theorem v26_ix (x0 x1 : (⟨S4x256x128x128, .f32⟩ : BufTy).Contents (Elt Ideal)) (n : Fin 4) (h : Fin 128) (r k : Fin 256) :
    val_main_v26 (F := Ideal) x0 x1 (ix4 n h r k)
      = Cert.Attn.score Cert.Attn.scaleChan (fun d => val_main_v21 (F := Ideal) x0 (ix4 n h r d))
          (fun d => val_main_v22 (F := Ideal) x1 (ix4 n h k d)) := by
  rw [val_main_v26_apply, val_main_v24_apply, val_main_v25_apply, val_main_cst_3_apply]
  generalize val_main_v21 (F := Ideal) x0 = yq
  generalize val_main_v22 (F := Ideal) x1 = yk
  unfold Cert.Attn.score
  simp only [Ideal.mulf_def, Ideal.ofBits_def]
  refine congrArg (· * _) (Finset.sum_congr rfl fun d _ => ?_)
  have el : lidx_main_v24 (ix4 n h r k) d = ix4 n h r d :=
    funext fun a => Fin.ext (by match a with | ⟨0, _⟩ => rfl | ⟨1, _⟩ => rfl | ⟨2, _⟩ => rfl | ⟨3, _⟩ => rfl)
  have er : ridx_main_v24 (ix4 n h r k) d = ix4 n h k d :=
    funext fun a => Fin.ext (by match a with | ⟨0, _⟩ => rfl | ⟨1, _⟩ => rfl | ⟨2, _⟩ => rfl | ⟨3, _⟩ => rfl)
  rw [el, er]

/-- The row's running maximum from -∞ over the 256 columns. -/
theorem v27_ix (x0 x1 : (⟨S4x256x128x128, .f32⟩ : BufTy).Contents (Elt Ideal)) (n : Fin 4) (h : Fin 128) (r : Fin 256) :
    val_main_v27 (F := Ideal) x0 x1 (ix3 n h r)
      = Finset.univ.fold max Cert.Attn.negInf (fun k : Fin 256 => val_main_v26 (F := Ideal) x0 x1 (ix4 n h r k)) := by
  unfold val_main_v27
  generalize val_main_v26 (F := Ideal) x0 x1 = y
  have e := Host.reduce_eq_fold_single (s := S4x128x256x256) (t := S4x128x256) (a := 3) (u := S_) (α := Ideal .f32)
    (FloatOps.maximumf (F := Ideal) (φ := .f32)) y (val_main_cst_4 (F := Ideal)) reducesTo_S4x128x256x256_S4x128x256_d3 reduces_scores h_S_ (ix3 n h r)
  refine e.trans ?_
  exact congrArg (fun f => Finset.fold max Cert.Attn.negInf f (Finset.univ : Finset (Fin 256)))
    (funext fun k => congrArg y (lift_scores n h r k))

/-- The row's maximum as the reference takes it: the fold from -∞, then once more against -∞. -/
theorem v29_ix (x0 x1 : (⟨S4x256x128x128, .f32⟩ : BufTy).Contents (Elt Ideal)) (n : Fin 4) (h : Fin 128) (r : Fin 256) :
    val_main_v29 (F := Ideal) x0 x1 (ix3 n h r)
      = Cert.Attn.rowMax (fun k : Fin 256 => val_main_v26 (F := Ideal) x0 x1 (ix4 n h r k)) := by
  rw [val_main_v29_apply, val_main_v28_apply, val_main_cst_5_apply, v27_ix]
  rfl

/-- The exponential of a score less its row's maximum. -/
theorem v33_ix (x0 x1 : (⟨S4x256x128x128, .f32⟩ : BufTy).Contents (Elt Ideal)) (n : Fin 4) (h : Fin 128) (r k : Fin 256) :
    val_main_v33 (F := Ideal) x0 x1 (ix4 n h r k)
      = Ideal.exp (val_main_v26 (F := Ideal) x0 x1 (ix4 n h r k)
          - Cert.Attn.rowMax (fun k' : Fin 256 => val_main_v26 (F := Ideal) x0 x1 (ix4 n h r k'))) := by
  rw [val_main_v33_apply, val_main_v32_apply, val_main_v31_apply, val_main_v30_apply]
  have ei : idx_main_v30 (idx_main_v31 (ix4 n h r k)) = ix3 n h r :=
    funext fun a => Fin.ext (by match a with | ⟨0, _⟩ => rfl | ⟨1, _⟩ => rfl | ⟨2, _⟩ => rfl)
  rw [ei, v29_ix]
  generalize val_main_v26 (F := Ideal) x0 x1 = y
  simp only [Ideal.hostUnary_exp_def, Ideal.subf_def]

/-- The row's sum of exponentials. -/
theorem v34_ix (x0 x1 : (⟨S4x256x128x128, .f32⟩ : BufTy).Contents (Elt Ideal)) (n : Fin 4) (h : Fin 128) (r : Fin 256) :
    val_main_v34 (F := Ideal) x0 x1 (ix3 n h r)
      = ∑ k : Fin 256, val_main_v33 (F := Ideal) x0 x1 (ix4 n h r k) := by
  rw [val_main_v34_apply, val_main_cst_6_apply]
  generalize val_main_v33 (F := Ideal) x0 x1 = y
  simp only [Ideal.ofBits_def, Ideal.ofBits_zero_f32, zero_add]
  refine Finset.sum_congr rfl fun k _ => congrArg y ?_
  exact funext fun a => Fin.ext (by match a with | ⟨0, _⟩ => rfl | ⟨1, _⟩ => rfl | ⟨2, _⟩ => rfl | ⟨3, _⟩ => rfl)

/-- A softmax weight: the exponential over the row's sum of exponentials. -/
theorem v37_ix (x0 x1 : (⟨S4x256x128x128, .f32⟩ : BufTy).Contents (Elt Ideal)) (n : Fin 4) (h : Fin 128) (r k : Fin 256) :
    val_main_v37 (F := Ideal) x0 x1 (ix4 n h r k)
      = Cert.Attn.softmaxRow (fun k' : Fin 256 => val_main_v26 (F := Ideal) x0 x1 (ix4 n h r k')) k := by
  rw [val_main_v37_apply, val_main_v36_apply, val_main_v35_apply]
  have ei : idx_main_v35 (idx_main_v36 (ix4 n h r k)) = ix3 n h r :=
    funext fun a => Fin.ext (by match a with | ⟨0, _⟩ => rfl | ⟨1, _⟩ => rfl | ⟨2, _⟩ => rfl)
  rw [ei, v34_ix]
  simp only [v33_ix]
  generalize val_main_v26 (F := Ideal) x0 x1 = y
  unfold Cert.Attn.softmaxRow
  simp only [Ideal.hostDivf_def]

/-- The reference's channel-attention stage is attention of the three transposed inputs. -/
theorem ref_eq (x0 x1 x3 : (⟨S4x256x128x128, .f32⟩ : BufTy).Contents (Elt Ideal)) :
    val_main_v38 (F := Ideal) x0 x1 x3
      = Cert.Attn.attn4 Cert.Attn.scaleChan (val_main_v21 (F := Ideal) x0) (val_main_v22 (F := Ideal) x1) (val_main_v23 (F := Ideal) x3) := by
  funext i
  obtain ⟨n, h, r, e, rfl⟩ : ∃ (n : Fin 4) (h : Fin 128) (r : Fin 256) (e : Fin 128), i = ix4 n h r e :=
    ⟨i 0, i 1, i 2, i 3, eq_ix4 i⟩
  rw [Cert.Attn.attn4_ix4, val_main_v38_apply]
  unfold Cert.Attn.attn4c Cert.Attn.attnRow
  refine Finset.sum_congr rfl fun k _ => ?_
  have el : lidx_main_v38 (ix4 n h r e) k = ix4 n h r k :=
    funext fun a => Fin.ext (by match a with | ⟨0, _⟩ => rfl | ⟨1, _⟩ => rfl | ⟨2, _⟩ => rfl | ⟨3, _⟩ => rfl)
  have er : ridx_main_v38 (ix4 n h r e) k = ix4 n h k e :=
    funext fun a => Fin.ext (by match a with | ⟨0, _⟩ => rfl | ⟨1, _⟩ => rfl | ⟨2, _⟩ => rfl | ⟨3, _⟩ => rfl)
  rw [el, er, v37_ix]
  have hs : (fun k' : Fin 256 => val_main_v26 (F := Ideal) x0 x1 (ix4 n h r k'))
      = fun k' : Fin 256 => Cert.Attn.score Cert.Attn.scaleChan (fun d => val_main_v21 (F := Ideal) x0 (ix4 n h r d))
          (fun d => val_main_v22 (F := Ideal) x1 (ix4 n h k' d)) :=
    funext fun k' => v26_ix x0 x1 n h r k'
  rw [hs]

end Cert.ReferenceIdeal.ChanValue

end
-- ==== Proof.Bridge.lean ====
/-
  Both programs end at one function of the launch arrays.

  `result x0 x1 x3` is the window attention of the re-laid first input with itself, laid back into an image, plus the
  channel attention of inputs 0, 1, 3 with axes 1 and 2 swapped, swapped back. The kernel program reaches it through
  two regions over flattened batches (the regions' output arrays are attention of their input arrays, and attention
  commutes with flattening the batch); the reference reaches it directly, its two batch axes kept apart.
-/
import proofs.«136589_j42305427866177_1_alg».proof.Proof.Gen.ReferenceIdeal.Read
import proofs.«136589_j42305427866177_1_alg».proof.Proof.AttnSpec
import proofs.«136589_j42305427866177_1_alg».proof.Proof.LibFlattenBatch
import proofs.«136589_j42305427866177_1_alg».proof.Proof.Fold
import proofs.«136589_j42305427866177_1_alg».proof.Proof.WinArray
import proofs.«136589_j42305427866177_1_alg».proof.Proof.ChanArray
import proofs.«136589_j42305427866177_1_alg».proof.Proof.WinRef
import proofs.«136589_j42305427866177_1_alg».proof.Proof.ChanRef

set_option maxRecDepth 16384

noncomputable section

namespace Cert.Bridge

open Idealize.ShloMosaic Idealize.ShloMosaic.TcCoe Idealize.SL.Sem
open Cert.Attn Cert.KernelIdeal Cert.KernelIdeal.Gen Cert.KernelIdeal.FoldValue

/-- The common result, as a function of launch arrays 0, 1 and 3. -/
def result (x0 x1 x3 : (⟨S4x256x128x128, .f32⟩ : BufTy).Contents (Elt Ideal)) : (⟨S4x256x128x128, .f32⟩ : BufTy).Contents (Elt Ideal) :=
  addf (F := Ideal) (s := S4x256x128x128) (φ := .f32)
    (unrelay (F := Ideal) (attn4 scaleWin (relay (F := Ideal) x0) (relay (F := Ideal) x0) (relay (F := Ideal) x0)))
    (unswap12 (F := Ideal) (attn4 scaleChan (swap12 (F := Ideal) x0) (swap12 (F := Ideal) x1) (swap12 (F := Ideal) x3)))

/-- The kernel program's result buffer ends at the common result of its launch arrays. -/
theorem kernel_result (m : (ℓ : Loc nD τ sig) → Buf (Elt Ideal) ℓ) (ρ : Dev nD → PrngReg) (c : Dev nD) :
    W5 m ρ c (Proc.devRef .tc main_v18)
      = result (m ((c : Thread nD τ).loc main_arg0)) (m ((c : Thread nD τ).loc main_arg1)) (m ((c : Thread nD τ).loc main_arg3)) := by
  rw [W5_main_v18, Cert.KernelIdeal.WinValue.final (V1 m ρ) c, Cert.KernelIdeal.ChanValue.final (V3 m ρ) c,
    V1_main_v3, V3_main_v10, V3_main_v12, V3_main_v14]
  unfold result
  have ew : shapeCast S1024x8x64x32
        (attn3 scaleWin (shapeCast S8192x64x32 (relay (m ((c : Thread nD τ).loc main_arg0))) shapeCasts_S1024x8x64x32_S8192x64x32)
          (shapeCast S8192x64x32 (relay (m ((c : Thread nD τ).loc main_arg0))) shapeCasts_S1024x8x64x32_S8192x64x32)
          (shapeCast S8192x64x32 (relay (m ((c : Thread nD τ).loc main_arg0))) shapeCasts_S1024x8x64x32_S8192x64x32))
        shapeCasts_S8192x64x32_S1024x8x64x32
      = attn4 scaleWin (relay (m ((c : Thread nD τ).loc main_arg0))) (relay (m ((c : Thread nD τ).loc main_arg0))) (relay (m ((c : Thread nD τ).loc main_arg0))) :=
    attn_flatten (N := 1024) (H := 8) (L := 64) (D := 32) scaleWin _ _ _ shapeCasts_S1024x8x64x32_S8192x64x32 shapeCasts_S8192x64x32_S1024x8x64x32
  have ec : shapeCast S4x128x256x128
        (attn3 scaleChan (shapeCast S512x256x128 (swap12 (m ((c : Thread nD τ).loc main_arg0))) shapeCasts_S4x128x256x128_S512x256x128)
          (shapeCast S512x256x128 (swap12 (m ((c : Thread nD τ).loc main_arg1))) shapeCasts_S4x128x256x128_S512x256x128)
          (shapeCast S512x256x128 (swap12 (m ((c : Thread nD τ).loc main_arg3))) shapeCasts_S4x128x256x128_S512x256x128))
        shapeCasts_S512x256x128_S4x128x256x128
      = attn4 scaleChan (swap12 (m ((c : Thread nD τ).loc main_arg0))) (swap12 (m ((c : Thread nD τ).loc main_arg1))) (swap12 (m ((c : Thread nD τ).loc main_arg3))) :=
    attn_flatten (N := 4) (H := 128) (L := 256) (D := 128) scaleChan _ _ _ shapeCasts_S4x128x256x128_S512x256x128 shapeCasts_S512x256x128_S4x128x256x128
  rw [ew, ec]

/-- The reference's stages are the same layout functions: its re-laid input, -/
theorem ref_relay (x0 : (⟨S4x256x128x128, .f32⟩ : BufTy).Contents (Elt Ideal)) :
    Cert.ReferenceIdeal.Read.val_main_v2 (F := Ideal) x0 = relay x0 := rfl
/-- its three swapped inputs, -/
theorem ref_swap0 (x0 : (⟨S4x256x128x128, .f32⟩ : BufTy).Contents (Elt Ideal)) :
    Cert.ReferenceIdeal.Read.val_main_v21 (F := Ideal) x0 = swap12 x0 := rfl
theorem ref_swap1 (x1 : (⟨S4x256x128x128, .f32⟩ : BufTy).Contents (Elt Ideal)) :
    Cert.ReferenceIdeal.Read.val_main_v22 (F := Ideal) x1 = swap12 x1 := rfl
theorem ref_swap3 (x3 : (⟨S4x256x128x128, .f32⟩ : BufTy).Contents (Elt Ideal)) :
    Cert.ReferenceIdeal.Read.val_main_v23 (F := Ideal) x3 = swap12 x3 := rfl
/-- the window part laid back, and the channel part swapped back. -/
theorem ref_unrelay (x0 : (⟨S4x256x128x128, .f32⟩ : BufTy).Contents (Elt Ideal)) :
    Cert.ReferenceIdeal.Read.val_main_v20 (F := Ideal) x0 = unrelay (Cert.ReferenceIdeal.Read.val_main_v17 (F := Ideal) x0) := rfl
theorem ref_unswap (x0 x1 x3 : (⟨S4x256x128x128, .f32⟩ : BufTy).Contents (Elt Ideal)) :
    Cert.ReferenceIdeal.Read.val_main_v39 (F := Ideal) x0 x1 x3 = unswap12 (Cert.ReferenceIdeal.Read.val_main_v38 (F := Ideal) x0 x1 x3) := rfl

/-- The reference's result stage is the common result of its launch arrays. -/
theorem ref_result (x0 x1 x3 : (⟨S4x256x128x128, .f32⟩ : BufTy).Contents (Elt Ideal)) :
    Cert.ReferenceIdeal.Read.val_main_v40 (F := Ideal) x0 x1 x3 = result x0 x1 x3 := by
  unfold Cert.ReferenceIdeal.Read.val_main_v40
  rw [ref_unrelay, ref_unswap, Cert.ReferenceIdeal.WinValue.ref_eq, Cert.ReferenceIdeal.ChanValue.ref_eq,
    ref_relay, ref_swap0, ref_swap1, ref_swap3]
  rfl

end Cert.Bridge

end
-- ==== Proof.lean ====
/-
  Window attention plus channel attention: the kernel program against its reference, over the extended reals.

  The kernel program runs two regions — self-attention of 8192 = 1024 x 8 windows of 64 positions x 32 features, and
  attention over 256 channels x 128 features for 512 = 4 x 128 groups — between re-layouts of the launch arrays, and adds
  the two results; the reference does the same with batched products on the host. Entry by entry both are
  ∑ j, softmax_j ((q · k_j) * scale) * v_j with the same scale patterns, the same -∞ start of the row maximum and the same
  order of operations, so at the ideal values the two results are one function of the launch arrays (`Cert.Bridge.result`):
  no law of arithmetic is needed beyond 0 + x = x, and the precondition is not opened.
  The frames of the two kernel programs are the generated ones; the reference's is its run with the result dropped;
  the idealization rewrote nothing, so `preserves` is trivial.
-/
import proofs.«136589_j42305427866177_1_alg».proof.Defs
import proofs.«136589_j42305427866177_1_alg».proof.Proof.Gen.Kernel
import proofs.«136589_j42305427866177_1_alg».proof.Proof.Gen.Kernel.Frame
import proofs.«136589_j42305427866177_1_alg».proof.Proof.Gen.KernelIdeal
import proofs.«136589_j42305427866177_1_alg».proof.Proof.Gen.KernelIdeal.Frame
import proofs.«136589_j42305427866177_1_alg».proof.Proof.Gen.ReferenceIdeal
import proofs.«136589_j42305427866177_1_alg».proof.Proof.Gen.Pre_finite_inputs
import proofs.«136589_j42305427866177_1_alg».proof.Proof.Gen.ReferenceIdeal.Run
import proofs.«136589_j42305427866177_1_alg».proof.Proof.Gen.ReferenceIdeal.Read
import proofs.«136589_j42305427866177_1_alg».proof.Proof.KernelRun
import proofs.«136589_j42305427866177_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at `Cert.Bridge.result` of launch arrays 0, 1 and 3, which the two memories share. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Bridge.kernel_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, Cert.Bridge.ref_result, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
